-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S512x32 : Shape := ⟨2, ![512, 32]⟩
abbrev S32 : Shape := ⟨1, ![32]⟩
abbrev S512 : Shape := ⟨1, ![512]⟩
abbrev S512x512 : Shape := ⟨2, ![512, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_arg9 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S512 .f32) (main_arg6 : FVec F S512x512 .f32) (main_arg7 : FVec F S512 .f32) (main_arg8 : FVec F S512 .f32) (main_arg9 : FVec F S512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x256 .f32) (main_arg3 : FVec F S512x32 .f32) (main_arg4 : FVec F S32 .f32) (main_arg5 : FVec F S512 .f32) (main_arg6 : FVec F S512x512 .f32) (main_arg7 : FVec F S512 .f32) (main_arg8 : FVec F S512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x32 .f32 := Host.absf main_arg3
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S512x32 : Shape := ⟨2, ![512, 32]⟩
abbrev S32 : Shape := ⟨1, ![32]⟩
abbrev S512 : Shape := ⟨1, ![512]⟩
abbrev S512x512 : Shape := ⟨2, ![512, 512]⟩
abbrev S1x32 : Shape := ⟨2, ![1, 32]⟩
abbrev S1x512 : Shape := ⟨2, ![1, 512]⟩
abbrev S50000x256 : Shape := ⟨2, ![50000, 256]⟩
abbrev S50000x32 : Shape := ⟨2, ![50000, 32]⟩
abbrev S2000x512 : Shape := ⟨2, ![2000, 512]⟩
abbrev S2000x256 : Shape := ⟨2, ![2000, 256]⟩
abbrev S2000x32 : Shape := ⟨2, ![2000, 32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S2000x8x4 : Shape := ⟨3, ![2000, 8, 4]⟩
abbrev S2000x4x64 : Shape := ⟨3, ![2000, 4, 64]⟩
abbrev S2000x8x64 : Shape := ⟨3, ![2000, 8, 64]⟩
abbrev S2000x8x1 : Shape := ⟨3, ![2000, 8, 1]⟩
abbrev S2000x8 : Shape := ⟨2, ![2000, 8]⟩
abbrev S2000x1x64 : Shape := ⟨3, ![2000, 1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 81
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S512x32, .f32⟩
  | .hbm, ⟨4, _⟩ => ⟨S32, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x256, .bf16⟩
  | .hbm, ⟨11, _⟩ => ⟨S512x32, .bf16⟩
  | .hbm, ⟨12, _⟩ => ⟨S512x512, .bf16⟩
  | .hbm, ⟨13, _⟩ => ⟨S1x32, .f32⟩
  | .hbm, ⟨14, _⟩ => ⟨S1x512, .f32⟩
  | .hbm, ⟨15, _⟩ => ⟨S50000x256, .f32⟩
  | .hbm, ⟨16, _⟩ => ⟨S50000x32, .f32⟩
  | .hbm, ⟨17, _⟩ => ⟨S50000x512, .f32⟩
  | .hbm, ⟨18, _⟩ => ⟨S50000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S1x800000, .i32⟩
  | .hbm, ⟨23, _⟩ => ⟨S800000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000, .f32⟩
  | .hbm, ⟨60, _⟩ => ⟨S850000, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x256, .f32⟩
  | .hbm, ⟨70, _⟩ => ⟨S850000x1, .f32⟩
  | .hbm, ⟨71, _⟩ => ⟨S850000x256, .f32⟩
  | .hbm, ⟨72, _⟩ => ⟨S850000x256, .f32⟩
  | .hbm, ⟨73, _⟩ => ⟨S_, .f32⟩
  | .hbm, ⟨74, _⟩ => ⟨S50000x256, .f32⟩
  | .hbm, ⟨75, _⟩ => ⟨S850000x1, .i32⟩
  | .hbm, ⟨76, _⟩ => ⟨S50000x256, .f32⟩
  | .hbm, ⟨77, _⟩ => ⟨S1x512, .f32⟩
  | .hbm, ⟨78, _⟩ => ⟨S1x512, .f32⟩
  | .hbm, ⟨79, _⟩ => ⟨S1x512, .f32⟩
  | .hbm, ⟨80, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S512x32, .bf16⟩
  | .local _ .vmem, ⟨4, _⟩ => ⟨S1x32, .f32⟩
  | .local _ .vmem, ⟨5, _⟩ => ⟨S512x512, .bf16⟩
  | .local _ .vmem, ⟨6, _⟩ => ⟨S1x512, .f32⟩
  | .local _ .vmem, ⟨7, _⟩ => ⟨S2000x256, .f32⟩
  | .local _ .vmem, ⟨8, _⟩ => ⟨S2000x256, .f32⟩
  | .local _ .vmem, ⟨9, _⟩ => ⟨S2000x32, .f32⟩
  | .local _ .vmem, ⟨10, _⟩ => ⟨S2000x32, .f32⟩
  | .local _ .vmem, ⟨11, _⟩ => ⟨S2000x512, .f32⟩
  | .local _ .vmem, ⟨12, _⟩ => ⟨S2000x512, .f32⟩
  | .local _ .vmem, ⟨13, _⟩ => ⟨S2000x32, .f32⟩
  | .local _ .vmem, ⟨14, _⟩ => ⟨S2000x32, .f32⟩
  | .local _ .vmem, ⟨15, _⟩ => ⟨S2000x256, .f32⟩
  | .local _ .vmem, ⟨16, _⟩ => ⟨S2000x256, .f32⟩
  | .local _ .vmem, ⟨17, _⟩ => ⟨S2000x512, .f32⟩
  | .local _ .vmem, ⟨18, _⟩ => ⟨S2000x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S2000x512, .f32⟩
  | .local _ .vmem, ⟨23, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  shapeCasts_S32_S1x32 : S32.ShapeCasts S1x32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S2000x32_S2000x32 : S2000x32.ShapeCasts S2000x32
  shapeCasts_S2000x32_S2000x8x4 : S2000x32.ShapeCasts S2000x8x4
  shapeCasts_S2000x256_S2000x256 : S2000x256.ShapeCasts S2000x256
  shapeCasts_S2000x256_S2000x4x64 : S2000x256.ShapeCasts S2000x4x64
  slices_S2000x8x4_o0_0_0_S2000x8x1 : S2000x8x4.Slices ![0, 0, 0] S2000x8x1
  shapeCasts_S2000x8x1_S2000x8 : S2000x8x1.ShapeCasts S2000x8
  slices_S2000x4x64_o0_0_0_S2000x1x64 : S2000x4x64.Slices ![0, 0, 0] S2000x1x64
  shapeCasts_S2000x1x64_S2000x64 : S2000x1x64.ShapeCasts S2000x64
  shapeCasts_S2000x8_S2000x8x1 : S2000x8.ShapeCasts S2000x8x1
  shapeCasts_S2000x64_S2000x1x64 : S2000x64.ShapeCasts S2000x1x64
  broadcasts_S2000x8x1_S2000x8x64 : S2000x8x1.Broadcasts S2000x8x64
  broadcasts_S2000x1x64_S2000x8x64 : S2000x1x64.Broadcasts S2000x8x64
  slices_S2000x8x4_o0_0_1_S2000x8x1 : S2000x8x4.Slices ![0, 0, 1] S2000x8x1
  slices_S2000x4x64_o0_1_0_S2000x1x64 : S2000x4x64.Slices ![0, 1, 0] S2000x1x64
  slices_S2000x8x4_o0_0_2_S2000x8x1 : S2000x8x4.Slices ![0, 0, 2] S2000x8x1
  slices_S2000x4x64_o0_2_0_S2000x1x64 : S2000x4x64.Slices ![0, 2, 0] S2000x1x64
  slices_S2000x8x4_o0_0_3_S2000x8x1 : S2000x8x4.Slices ![0, 0, 3] S2000x8x1
  slices_S2000x4x64_o0_3_0_S2000x1x64 : S2000x4x64.Slices ![0, 3, 0] S2000x1x64
  shapeCasts_S2000x8x64_S2000x512 : S2000x8x64.ShapeCasts S2000x512
  shapeCasts_S2000x512_S2000x512 : S2000x512.ShapeCasts S2000x512
  reduces_S2000x512_S2000 : S2000x512.Reduces [1] S2000
  shapeCasts_S2000_S2000x1 : S2000.ShapeCasts S2000x1
  broadcasts_S2000x1_S2000x512 : S2000x1.Broadcasts S2000x512
  dot_S2000x512_S512x256_S2000x256_1_0_0_1_n_n_wf : DotDims.WF S2000x512 S512x256 S2000x256 [1] [0] [0] [1] [] []
  dot_S2000x512_S512x32_S2000x32_1_0_0_1_n_n_wf : DotDims.WF S2000x512 S512x32 S2000x32 [1] [0] [0] [1] [] []
  dot_S2000x512_S512x512_S2000x512_1_0_0_1_n_n_wf : DotDims.WF S2000x512 S512x512 S2000x512 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .bf16 = 32 ∨ (Rect.block (s := S512x32) S512x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x32.size a ≤ S50000x32.size a
  hwx0_7 : ∀ i : grid0.Coords, EltTy.bits .f32 = 32 ∨ (Rect.block (s := S50000x32) S2000x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x512.size a ≤ S50000x512.size a
  hwx0_8 : ∀ i : grid0.Coords, EltTy.bits .f32 = 32 ∨ (Rect.block (s := S50000x512) S2000x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x512.size a ≤ S50000x512.size a
  hwx1_6 : ∀ i : grid1.Coords, EltTy.bits .f32 = 32 ∨ (Rect.block (s := S50000x512) S2000x512.size (cc1_transform_6 i) (hinb1_6 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S2000x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S2000x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v5_1) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S2000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S2000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S512x32 : Shape := ⟨2, ![512, 32]⟩
abbrev S32 : Shape := ⟨1, ![32]⟩
abbrev S512 : Shape := ⟨1, ![512]⟩
abbrev S512x512 : Shape := ⟨2, ![512, 512]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S50000x32 : Shape := ⟨2, ![50000, 32]⟩
abbrev S1x32 : Shape := ⟨2, ![1, 32]⟩
abbrev S50000x8x4 : Shape := ⟨3, ![50000, 8, 4]⟩
abbrev S50000x4x64 : Shape := ⟨3, ![50000, 4, 64]⟩
abbrev S50000x8x64 : Shape := ⟨3, ![50000, 8, 64]⟩
abbrev S1x512 : Shape := ⟨2, ![1, 512]⟩
abbrev S50000x1 : Shape := ⟨2, ![50000, 1]⟩

abbrev nBuf : Space → Nat
  | .hbm => 133
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S512x32, .f32⟩
  | 4 => ⟨S32, .f32⟩
  | 5 => ⟨S512, .f32⟩
  | 6 => ⟨S512x512, .f32⟩
  | 7 => ⟨S512, .f32⟩
  | 8 => ⟨S512, .f32⟩
  | 9 => ⟨S512, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S50000x32, .f32⟩
  | 71 => ⟨S1x32, .f32⟩
  | 72 => ⟨S50000x32, .f32⟩
  | 73 => ⟨S50000x32, .f32⟩
  | 74 => ⟨S50000x8x4, .f32⟩
  | 75 => ⟨S50000x4x64, .f32⟩
  | 76 => ⟨S50000x8x64, .f32⟩
  | 77 => ⟨S50000x512, .f32⟩
  | 78 => ⟨S1x512, .f32⟩
  | 79 => ⟨S50000x512, .f32⟩
  | 80 => ⟨S50000x512, .f32⟩
  | 81 => ⟨S50000x512, .f32⟩
  | 82 => ⟨S50000x512, .f32⟩
  | 83 => ⟨S1x512, .f32⟩
  | 84 => ⟨S50000x512, .f32⟩
  | 85 => ⟨S50000x512, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S_, .i32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S50000x512, .f32⟩
  | 100 => ⟨S50000x512, .f32⟩
  | 101 => ⟨S50000x512, .f32⟩
  | 102 => ⟨S_, .f32⟩
  | 103 => ⟨S_, .f32⟩
  | 104 => ⟨S_, .f32⟩
  | 105 => ⟨S_, .f32⟩
  | 106 => ⟨S50000, .f32⟩
  | 107 => ⟨S50000x1, .f32⟩
  | 108 => ⟨S50000x1, .f32⟩
  | 109 => ⟨S50000x1, .f32⟩
  | 110 => ⟨S_, .f32⟩
  | 111 => ⟨S_, .i1⟩
  | 112 => ⟨S_, .f32⟩
  | 113 => ⟨S_, .f32⟩
  | 114 => ⟨S50000x1, .f32⟩
  | 115 => ⟨S50000x1, .f32⟩
  | 116 => ⟨S50000x512, .f32⟩
  | 117 => ⟨S50000x512, .f32⟩
  | 118 => ⟨S_, .f32⟩
  | 119 => ⟨S50000x1, .f32⟩
  | 120 => ⟨S50000x1, .f32⟩
  | 121 => ⟨S50000x1, .f32⟩
  | 122 => ⟨S50000x512, .f32⟩
  | 123 => ⟨S50000x512, .f32⟩
  | 124 => ⟨S1x512, .f32⟩
  | 125 => ⟨S50000x512, .f32⟩
  | 126 => ⟨S50000x512, .f32⟩
  | 127 => ⟨S1x512, .f32⟩
  | _ => ⟨S50000x512, .f32⟩

abbrev hbmTy0_1 (i : Nat) : BufTy := match i % 128 with
  | 0 => ⟨S50000x512, .f32⟩
  | 1 => ⟨S50000x512, .f32⟩
  | 2 => ⟨S_, .f32⟩
  | 3 => ⟨S50000x512, .f32⟩
  | 4 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_cst_1 : Ref sig .tc := ⟨.hbm, 103, rfl⟩
abbrev main_call1_v8 : Ref sig .tc := ⟨.hbm, 104, rfl⟩
abbrev main_call1_cst_2 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_cst_3 : Ref sig .tc := ⟨.hbm, 110, rfl⟩
abbrev main_call1_v13 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_13 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call2_cst : Ref sig .tc := ⟨.hbm, 130, rfl⟩
abbrev main_call2_v0 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S50000x32_S50000x8x4 : S50000x32.ShapeCasts S50000x8x4
  shapeCasts_S50000x256_S50000x4x64 : S50000x256.ShapeCasts S50000x4x64
  shapeCasts_S50000x8x64_S50000x512 : S50000x8x64.ShapeCasts S50000x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x512_S512x32_S50000x32_1_0_0_1_n_n_wf : DotDims.WF S50000x512 S512x32 S50000x32 [1] [0] [0] [1] [] []
  dot_S50000x8x4_S50000x4x64_S50000x8x64_2_1_1_2_0_0_wf : DotDims.WF S50000x8x4 S50000x4x64 S50000x8x64 [2] [1] [1] [2] [0] [0]
  dot_S50000x512_S512x512_S50000x512_1_0_0_1_n_n_wf : DotDims.WF S50000x512 S512x512 S50000x512 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x512_S512x32_S50000x32_1_0_0_1_n_n : DotDims S50000x512 S512x32 S50000x32 where
  lhsContracting := [1]
  rhsContracting := [0]
  lhsNonContracting := [0]
  rhsNonContracting := [1]
  lhsBatch := []
  rhsBatch := []
  wf := dot_S50000x512_S512x32_S50000x32_1_0_0_1_n_n_wf
def dot_S50000x8x4_S50000x4x64_S50000x8x64_2_1_1_2_0_0 : DotDims S50000x8x4 S50000x4x64 S50000x8x64 where
  lhsContracting := [2]
  rhsContracting := [1]
  lhsNonContracting := [1]
  rhsNonContracting := [2]
  lhsBatch := [0]
  rhsBatch := [0]
  wf := dot_S50000x8x4_S50000x4x64_S50000x8x64_2_1_1_2_0_0_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.Spec.lean ====
/-
  What both programs compute, written once over the extended reals, index by index.

  A node n of the graph has a feature row x[n, :] of 512 numbers. Three linear maps of that row:
    bases[n, :] = x[n, :] · W_bases                      (256 numbers: 4 bases of 64 features)
    comb[n, :]  = x[n, :] · W_comb + b_comb              (32 numbers: 8 heads times 4 bases)
    res[n, :]   = x[n, :] · W_res + b_res                (512 numbers: the residual branch)
  The bases are aggregated over the graph's edges (the symmetric-normalised sum; Proof/RefTerm.lean's aggR),
  giving agg[n, :] (256 numbers). Head h, feature f of the convolution is the sum over the 4 bases b of
  comb[n, 4h + b] · agg[n, 64b + f]; with the output bias and the residual branch added this is the row
  pre[n, :] (512 numbers, position 64h + f). The row is then normalised: mean and variance over its 512 entries,
  (pre - mean) · rsqrt(var + ε) · γ + β, and clipped below at 0.

  The row functions are stated for any number R of rows: a kernel works on blocks of 2000 rows, the reference on all
  50000, and a row's value depends on that row alone.
-/
import Idealize.ShloMosaic.PureOps.Ideal
import Idealize.ShloMosaic.Lib.ValueIdx

noncomputable section

open scoped BigOperators

namespace Cert.Spec

open Idealize.ShloMosaic Idealize.ShloMosaic.ValueIdx

/-- x · W_bases: entry (n, q) is the sum over k of x[n, k] · w[k, q]. -/
def projB (x : FVec Ideal ⟨2, ![50000, 512]⟩ .f32) (w : FVec Ideal ⟨2, ![512, 256]⟩ .f32) :
    FVec Ideal ⟨2, ![50000, 256]⟩ .f32 :=
  fun i => ∑ k : Fin 512, x (ix2 (i 0) k) * w (ix2 k (i 1))

/-- x · W_comb + b_comb. -/
def projC (x : FVec Ideal ⟨2, ![50000, 512]⟩ .f32) (w : FVec Ideal ⟨2, ![512, 32]⟩ .f32) (b : FVec Ideal ⟨1, ![32]⟩ .f32) :
    FVec Ideal ⟨2, ![50000, 32]⟩ .f32 :=
  fun i => (∑ k : Fin 512, x (ix2 (i 0) k) * w (ix2 k (i 1))) + b (ix1 (i 1))

/-- x · W_res + b_res. -/
def projR (x : FVec Ideal ⟨2, ![50000, 512]⟩ .f32) (w : FVec Ideal ⟨2, ![512, 512]⟩ .f32) (b : FVec Ideal ⟨1, ![512]⟩ .f32) :
    FVec Ideal ⟨2, ![50000, 512]⟩ .f32 :=
  fun i => (∑ k : Fin 512, x (ix2 (i 0) k) * w (ix2 k (i 1))) + b (ix1 (i 1))

/-! ## One row of 512, normalised -/

/-- A row's mean: its sum divided by the float 512. -/
def meanOf (o : Fin 512 → EReal) : EReal := Ideal.div (∑ j : Fin 512, o j) (Ideal.ofBits .f32 0x44000000#32)

/-- A row's variance: the mean of the squared deviations from its mean. -/
def varOf (o : Fin 512 → EReal) : EReal :=
  Ideal.div (∑ j : Fin 512, (o j - meanOf o) * (o j - meanOf o)) (Ideal.ofBits .f32 0x44000000#32)

/-- Entry j of the row centred, divided by the root of variance plus ε, scaled by γ, shifted by β, clipped at 0. -/
def normOf (o γ β : Fin 512 → EReal) (j : Fin 512) : EReal :=
  max (((o j - meanOf o) * Ideal.rsqrt (varOf o + Ideal.ofBits .f32 0x3727C5AC#32)) * γ j + β j)
    (Ideal.ofBits .f32 0x00000000#32)

/-! ## The rows before normalisation, for R rows -/

section Rows

variable {R : Nat} (comb : FVec Ideal ⟨2, ![R, 32]⟩ .f32) (agg : FVec Ideal ⟨2, ![R, 256]⟩ .f32)
  (res : FVec Ideal ⟨2, ![R, 512]⟩ .f32) (cb γ β : Fin 512 → EReal)

/-- Head h = j / 64, feature f = j % 64 of row n's convolution: the sum over the four bases. -/
def mix (n : Fin R) (j : Fin 512) : EReal :=
  ∑ b : Fin 4, comb (ix2 n ⟨(j.val / 64) * 4 + b.val, by have := j.isLt; have := b.isLt; omega⟩)
    * agg (ix2 n ⟨b.val * 64 + j.val % 64, by have := b.isLt; omega⟩)

/-- Row n before normalisation: convolution, output bias, residual branch. -/
def pre (n : Fin R) (j : Fin 512) : EReal := (mix comb agg n j + cb j) + res (ix2 n j)

/-- The normalised rows, as the [R, 512] array. -/
def rowNorm : FVec Ideal ⟨2, ![R, 512]⟩ .f32 := fun i => normOf (pre comb agg res cb (i 0)) γ β (i 1)

end Rows

/-- A row of the result depends on that row of the three arrays alone: rows that agree entry by entry, in arrays of any
    two heights, give the same normalised row. -/
theorem rowNorm_row {R R' : Nat}
    (comb : FVec Ideal ⟨2, ![R, 32]⟩ .f32) (agg : FVec Ideal ⟨2, ![R, 256]⟩ .f32) (res : FVec Ideal ⟨2, ![R, 512]⟩ .f32)
    (comb' : FVec Ideal ⟨2, ![R', 32]⟩ .f32) (agg' : FVec Ideal ⟨2, ![R', 256]⟩ .f32) (res' : FVec Ideal ⟨2, ![R', 512]⟩ .f32)
    (cb γ β : Fin 512 → EReal) (n : Fin R) (n' : Fin R')
    (hc : ∀ k : Fin 32, comb (ix2 n k) = comb' (ix2 n' k)) (ha : ∀ k : Fin 256, agg (ix2 n k) = agg' (ix2 n' k))
    (hr : ∀ k : Fin 512, res (ix2 n k) = res' (ix2 n' k)) (q : Fin 512) :
    rowNorm comb agg res cb γ β (ix2 n q) = rowNorm comb' agg' res' cb γ β (ix2 n' q) := by
  have hpre : pre comb agg res cb n = pre comb' agg' res' cb n' := by
    funext j
    unfold pre mix
    rw [hr j]
    congr 2
    exact Finset.sum_congr rfl fun b _ => by rw [hc, ha]
  show normOf (pre comb agg res cb n) γ β q = normOf (pre comb' agg' res' cb n') γ β q
  rw [hpre]

end Cert.Spec

end
-- ==== Proof.Projections.lean ====
/-
  Region 0 of the kernel's program: what its three output arrays hold after the region.

  The region runs over 25 grid points; point t reads rows 2000·t … 2000·t + 1999 of the feature array x and the whole of
  each weight and bias array, and writes rows 2000·t … of three arrays: x · W_bases, x · W_comb + b_comb, x · W_res + b_res.
  On the extended reals the casts to bf16 are the identity and a matrix product accumulated into zero is the plain sum
  over the contracted coordinate, so each written block is the block of the whole-array product, and the 25 blocks
  cover each output array: row r lies in the block of point r / 2000.

  The order: the three payloads at an entry; a block's entry against the whole arrays; the input windows' blocks at a
  point; the arrays the region finds (what the host operations before it leave); what a point writes back; the cover; the
  three arrays.
-/
import proofs.«131571_j76828374991621_1_alg».proof.Proof.Gen.KernelIdeal.Frame
import proofs.«131571_j76828374991621_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The body's three payloads at an entry -/

/-- A product of an M×K by a K×N matrix accumulated into the zero matrix, read at an entry: the sum over the
    contracted coordinate of the products of the entries. -/
theorem matmul_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (a : Fin M) (b : Fin N) :
    matmul (⟨[1], [0], [0], [1], [], [], w⟩ : DotDims _ _ _) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- x · W (the four bases' 256 features): the cast of x to bf16 is the identity on the extended reals. -/
theorem pay2_apply (x : Vec Ideal S2000x512 .f32) (w : Vec Ideal S512x256 .bf16) (p : Fin 2000) (q : Fin 256) :
    k0_pay2 (F := Ideal) x w (ix2 p q) = ∑ k : Fin 512, x (ix2 p k) * w (ix2 k q) := by
  unfold k0_pay2 k0_pay1
  rw [shapeCast_self]
  exact matmul_zero_apply dot_S2000x512_S512x256_S2000x256_1_0_0_1_n_n_wf none _ w p q

/-- x · W + b (the 32 combination weights): the one-row bias is added to every row. -/
theorem pay3_apply (x : Vec Ideal S2000x512 .f32) (w : Vec Ideal S512x32 .bf16) (b : Vec Ideal S1x32 .f32) (p : Fin 2000) (q : Fin 32) :
    k0_pay3 (F := Ideal) x w b (ix2 p q) = (∑ k : Fin 512, x (ix2 p k) * w (ix2 k q)) + b (ix2 (0 : Fin 1) q) := by
  unfold k0_pay3 k0_pay1
  rw [shapeCast_self, shapeCast_self, addf_apply]
  exact congrArg₂ (· + ·) (matmul_zero_apply dot_S2000x512_S512x32_S2000x32_1_0_0_1_n_n_wf none _ w p q)
    (broadcastTo_1b_ab_apply b broadcasts_S1x32_S2000x32 p q)

/-- x · W + b (the residual branch's 512 features). -/
theorem pay4_apply (x : Vec Ideal S2000x512 .f32) (w : Vec Ideal S512x512 .bf16) (b : Vec Ideal S1x512 .f32) (p : Fin 2000) (q : Fin 512) :
    k0_pay4 (F := Ideal) x w b (ix2 p q) = (∑ k : Fin 512, x (ix2 p k) * w (ix2 k q)) + b (ix2 (0 : Fin 1) q) := by
  unfold k0_pay4 k0_pay1
  rw [shapeCast_self, shapeCast_self, addf_apply]
  exact congrArg₂ (· + ·) (matmul_zero_apply dot_S2000x512_S512x512_S2000x512_1_0_0_1_n_n_wf none _ w p q)
    (broadcastTo_1b_ab_apply b broadcasts_S1x512_S2000x512 p q)

/-! ## A block's entry against the whole arrays -/

/-- Block T of x · W_bases: when the feature block is rows 2000·T … of X and the weight block is W cast to bf16, the
    payload's entry j is the array product's entry (2000·T + j₀, j₁). -/
theorem blk6 (X : FVec Ideal ⟨2, ![50000, 512]⟩ .f32) (W : FVec Ideal ⟨2, ![512, 256]⟩ .f32)
    (x : Vec Ideal S2000x512 .f32) (w : Vec Ideal S512x256 .bf16) (T : Nat)
    (hx : ∀ (y : S2000x512.Idx) (i' : S50000x512.Idx), (i' 0).val = T * 2000 + (y 0).val → (i' 1).val = (y 1).val → x y = X i')
    (hw : w = truncf (F := Ideal) .bf16 W bitsLt_bf16_f32)
    (j : S2000x256.Idx) (i : S50000x256.Idx) (h0 : (i 0).val = T * 2000 + (j 0).val) (h1 : (i 1).val = (j 1).val) :
    k0_pay2 (F := Ideal) x w j = Cert.Spec.projB X W i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  obtain rfl : s = q := Fin.ext h1
  rw [pay2_apply, hw]
  show _ = ∑ k : Fin 512, X (ix2 r k) * W (ix2 k s)
  exact Finset.sum_congr rfl fun k _ => by rw [hx (ix2 p k) (ix2 r k) h0 rfl, truncf_apply]

/-- Block T of x · W_comb + b_comb: the bias block is the bias vector read as one row. -/
theorem blk7 (X : FVec Ideal ⟨2, ![50000, 512]⟩ .f32) (W : FVec Ideal ⟨2, ![512, 32]⟩ .f32) (B : FVec Ideal ⟨1, ![32]⟩ .f32)
    (x : Vec Ideal S2000x512 .f32) (w : Vec Ideal S512x32 .bf16) (b : Vec Ideal S1x32 .f32) (T : Nat)
    (hx : ∀ (y : S2000x512.Idx) (i' : S50000x512.Idx), (i' 0).val = T * 2000 + (y 0).val → (i' 1).val = (y 1).val → x y = X i')
    (hw : w = truncf (F := Ideal) .bf16 W bitsLt_bf16_f32) (hb : b = shapeCast S1x32 B shapeCasts_S32_S1x32)
    (j : S2000x32.Idx) (i : S50000x32.Idx) (h0 : (i 0).val = T * 2000 + (j 0).val) (h1 : (i 1).val = (j 1).val) :
    k0_pay3 (F := Ideal) x w b j = Cert.Spec.projC X W B i := by
  obtain ⟨p, q, rfl⟩ : ∃ (p : Fin 2000) (q : Fin 32), j = ix2 p q := ⟨j 0, j 1, eq_ix2 j⟩
  obtain ⟨r, s, rfl⟩ : ∃ (r : Fin 50000) (s : Fin 32), i = ix2 r s := ⟨i 0, i 1, eq_ix2 i⟩
  obtain rfl : s = q := Fin.ext h1
  rw [pay3_apply, hw, hb, shapeCast_a_1a_apply]
  show _ = (∑ k : Fin 512, X (ix2 r k) * W (ix2 k s)) + B (ix1 s)
  exact congrArg (· + B (ix1 s)) (Finset.sum_congr rfl fun k _ => by rw [hx (ix2 p k) (ix2 r k) h0 rfl, truncf_apply])

/-- Block T of x · W_res + b_res. -/
theorem blk8 (X : FVec Ideal ⟨2, ![50000, 512]⟩ .f32) (W : FVec Ideal ⟨2, ![512, 512]⟩ .f32) (B : FVec Ideal ⟨1, ![512]⟩ .f32)
    (x : Vec Ideal S2000x512 .f32) (w : Vec Ideal S512x512 .bf16) (b : Vec Ideal S1x512 .f32) (T : Nat)
    (hx : ∀ (y : S2000x512.Idx) (i' : S50000x512.Idx), (i' 0).val = T * 2000 + (y 0).val → (i' 1).val = (y 1).val → x y = X i')
    (hw : w = truncf (F := Ideal) .bf16 W bitsLt_bf16_f32) (hb : b = shapeCast S1x512 B shapeCasts_S512_S1x512)
    (j : S2000x512.Idx) (i : S50000x512.Idx) (h0 : (i 0).val = T * 2000 + (j 0).val) (h1 : (i 1).val = (j 1).val) :
    k0_pay4 (F := Ideal) x w b j = Cert.Spec.projR X W B i := by
  obtain ⟨p, q, rfl⟩ : ∃ (p : Fin 2000) (q : Fin 512), j = ix2 p q := ⟨j 0, j 1, eq_ix2 j⟩
  obtain ⟨r, s, rfl⟩ : ∃ (r : Fin 50000) (s : Fin 512), i = ix2 r s := ⟨i 0, i 1, eq_ix2 i⟩
  obtain rfl : s = q := Fin.ext h1
  rw [pay4_apply, hw, hb, shapeCast_a_1a_apply]
  show _ = (∑ k : Fin 512, X (ix2 r k) * W (ix2 k s)) + B (ix1 s)
  exact congrArg (· + B (ix1 s)) (Finset.sum_congr rfl fun k _ => by rw [hx (ix2 p k) (ix2 r k) h0 rfl, truncf_apply])

/-! ## The windows' blocks at a grid point -/

theorem hz : (![0, 0] : Fin 2 → Nat) = fun _ => 0 := funext fun a => by fin_cases a <;> rfl

/-- The printed index maps over the 25 points: the feature window is at row block t … -/
theorem idx_x : ∀ t : Fin cfg0.N, win0_0.index t (0 : Fin 2) = t.val ∧ win0_0.index t (1 : Fin 2) = 0 :=
  (by decide +kernel : ∀ t : Fin grid0.N, _)

/-- … the weight and bias windows at their one block … -/
theorem idx_w : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- … and the three output windows at row block t. -/
theorem idx_o : ∀ t : Fin cfg0.N,
    (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

section Blocks
variable (V : (c : Dev nD) → (b : Ref sig .tc) → Buf (Elt Ideal) ((c : Thread nD τ).loc b))

/-- The feature window's block at point t is rows 2000·t … 2000·t + 1999 of the array. -/
theorem xblk_apply (c : Dev nD) (t : Fin cfg0.N) (y : S2000x512.Idx) (i : S50000x512.Idx)
    (h0 : (i 0).val = t.val * 2000 + (y 0).val) (h1 : (i 1).val = (y 1).val) :
    (iblk0 (F := Ideal) V c 0 t : Vec Ideal S2000x512 .f32) y = (V c main_arg0 : S50000x512.Idx → Elt Ideal .f32) i := by
  obtain ⟨e0, e1⟩ := idx_x t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 512 + 1 * (y 1).val = (i 1).val; rw [e1, h1]; omega

/-- Each weight or bias window's one block is its whole array. -/
theorem wblk1 (c : Dev nD) (t : Fin cfg0.N) :
    (iblk0 (F := Ideal) V c 1 t : Vec Ideal S512x256 .bf16) = (V c main_v0 : S512x256.Idx → Elt Ideal .bf16) := by
  obtain ⟨⟨e0, e1⟩, -⟩ := idx_w t
  funext y
  unfold iblk0
  rw [View.read_apply]
  show V c main_v0 _ = V c main_v0 _
  congr 1
  funext a
  apply Fin.ext
  match a with
  | ⟨0, _⟩ => show win0_1.index t 0 * 512 + 1 * (y 0).val = (y 0).val; rw [e0]; omega
  | ⟨1, _⟩ => show win0_1.index t 1 * 256 + 1 * (y 1).val = (y 1).val; rw [e1]; omega

theorem wblk2 (c : Dev nD) (t : Fin cfg0.N) :
    (iblk0 (F := Ideal) V c 2 t : Vec Ideal S512x32 .bf16) = (V c main_v1 : S512x32.Idx → Elt Ideal .bf16) := by
  obtain ⟨-, ⟨e0, e1⟩, -⟩ := idx_w t
  funext y
  unfold iblk0
  rw [View.read_apply]
  show V c main_v1 _ = V c main_v1 _
  congr 1
  funext a
  apply Fin.ext
  match a with
  | ⟨0, _⟩ => show win0_2.index t 0 * 512 + 1 * (y 0).val = (y 0).val; rw [e0]; omega
  | ⟨1, _⟩ => show win0_2.index t 1 * 32 + 1 * (y 1).val = (y 1).val; rw [e1]; omega

theorem wblk3 (c : Dev nD) (t : Fin cfg0.N) :
    (iblk0 (F := Ideal) V c 3 t : Vec Ideal S1x32 .f32) = (V c main_v3 : S1x32.Idx → Elt Ideal .f32) := by
  obtain ⟨-, -, ⟨e0, e1⟩, -⟩ := idx_w t
  funext y
  unfold iblk0
  rw [View.read_apply]
  show V c main_v3 _ = V c main_v3 _
  congr 1
  funext a
  apply Fin.ext
  match a with
  | ⟨0, _⟩ => show win0_3.index t 0 * 1 + 1 * (y 0).val = (y 0).val; rw [e0]; omega
  | ⟨1, _⟩ => show win0_3.index t 1 * 32 + 1 * (y 1).val = (y 1).val; rw [e1]; omega

theorem wblk4 (c : Dev nD) (t : Fin cfg0.N) :
    (iblk0 (F := Ideal) V c 4 t : Vec Ideal S512x512 .bf16) = (V c main_v2 : S512x512.Idx → Elt Ideal .bf16) := by
  obtain ⟨-, -, -, ⟨e0, e1⟩, -⟩ := idx_w t
  funext y
  unfold iblk0
  rw [View.read_apply]
  show V c main_v2 _ = V c main_v2 _
  congr 1
  funext a
  apply Fin.ext
  match a with
  | ⟨0, _⟩ => show win0_4.index t 0 * 512 + 1 * (y 0).val = (y 0).val; rw [e0]; omega
  | ⟨1, _⟩ => show win0_4.index t 1 * 512 + 1 * (y 1).val = (y 1).val; rw [e1]; omega

theorem wblk5 (c : Dev nD) (t : Fin cfg0.N) :
    (iblk0 (F := Ideal) V c 5 t : Vec Ideal S1x512 .f32) = (V c main_v4 : S1x512.Idx → Elt Ideal .f32) := by
  obtain ⟨-, -, -, -, e0, e1⟩ := idx_w t
  funext y
  unfold iblk0
  rw [View.read_apply]
  show V c main_v4 _ = V c main_v4 _
  congr 1
  funext a
  apply Fin.ext
  match a with
  | ⟨0, _⟩ => show win0_5.index t 0 * 1 + 1 * (y 0).val = (y 0).val; rw [e0]; omega
  | ⟨1, _⟩ => show win0_5.index t 1 * 512 + 1 * (y 1).val = (y 1).val; rw [e1]; omega

end Blocks

/-! ## The arrays region 0 finds: the feature array as launched, the weights cast to bf16, the biases as one-row matrices -/

theorem V1_arg0 (c : Dev nD) :
    (V1 m ρ c main_arg0 : S50000x512.Idx → Elt Ideal .f32) = m ((c.tc : Thread nD τ).loc main_arg0) := by
  dsimp only [V1, W1, hostOps0]; after_results

theorem V1_v0 (c : Dev nD) :
    (V1 m ρ c main_v0 : S512x256.Idx → Elt Ideal .bf16)
      = truncf (F := Ideal) .bf16 (m ((c.tc : Thread nD τ).loc main_arg2) : S512x256.Idx → Elt Ideal .f32) bitsLt_bf16_f32 := by
  dsimp only [V1, W1, hostOps0]; after_results

theorem V1_v1 (c : Dev nD) :
    (V1 m ρ c main_v1 : S512x32.Idx → Elt Ideal .bf16)
      = truncf (F := Ideal) .bf16 (m ((c.tc : Thread nD τ).loc main_arg3) : S512x32.Idx → Elt Ideal .f32) bitsLt_bf16_f32 := by
  dsimp only [V1, W1, hostOps0]; after_results

theorem V1_v2 (c : Dev nD) :
    (V1 m ρ c main_v2 : S512x512.Idx → Elt Ideal .bf16)
      = truncf (F := Ideal) .bf16 (m ((c.tc : Thread nD τ).loc main_arg6) : S512x512.Idx → Elt Ideal .f32) bitsLt_bf16_f32 := by
  dsimp only [V1, W1, hostOps0]; after_results

theorem V1_v3 (c : Dev nD) :
    (V1 m ρ c main_v3 : S1x32.Idx → Elt Ideal .f32)
      = shapeCast S1x32 (m ((c.tc : Thread nD τ).loc main_arg4) : S32.Idx → Elt Ideal .f32) shapeCasts_S32_S1x32 := by
  dsimp only [V1, W1, hostOps0]; after_results; rfl

theorem V1_v4 (c : Dev nD) :
    (V1 m ρ c main_v4 : S1x512.Idx → Elt Ideal .f32)
      = shapeCast S1x512 (m ((c.tc : Thread nD τ).loc main_arg7) : S512.Idx → Elt Ideal .f32) shapeCasts_S512_S1x512 := by
  dsimp only [V1, W1, hostOps0]; after_results; rfl

/-! ## What each point writes back, the cover, and the three arrays after the region -/

/-- At region 0's entry the feature block at point t is rows 2000·t … of the launched feature array. -/
theorem xblk_launch (c : Dev nD) (t : Fin cfg0.N) (y : S2000x512.Idx) (i : S50000x512.Idx)
    (h0 : (i 0).val = t.val * 2000 + (y 0).val) (h1 : (i 1).val = (y 1).val) :
    (iblk0 (F := Ideal) (V1 m ρ) c 0 t : Vec Ideal S2000x512 .f32) y
      = (m ((c.tc : Thread nD τ).loc main_arg0) : S50000x512.Idx → Elt Ideal .f32) i :=
  (xblk_apply (V1 m ρ) c t y i h0 h1).trans (congrFun (V1_arg0 m ρ c) i)

/-- Point t writes back block t of x · W_bases. -/
theorem flushed6 (c : Dev nD) (t : Fin cfg0.N) :
    (dat0 (F := Ideal) (V1 m ρ) c).flushed 6 t = ((cfg0.win 6).blk t).view.read (Elt Ideal)
      (Cert.Spec.projB (m ((c.tc : Thread nD τ).loc main_arg0)) (m ((c.tc : Thread nD τ).loc main_arg2))) := by
  show (cfg0.win 6).cut (grid0.coords t) ((dat0 (F := Ideal) (V1 m ρ) c).after 6 t) = _
  rw [after0_6]
  unfold out0_6
  rw [View.canon_unit_zero hz]
  simp only [View.ld_unit_zero (S := S2000x512) hz, View.ld_unit_zero (S := S512x256) hz]
  obtain ⟨⟨e0, e1⟩, -⟩ := idx_o t
  funext j
  show k0_pay2 (F := Ideal) (iblk0 (V1 m ρ) c 0 t) (iblk0 (V1 m ρ) c 1 t) j
    = Cert.Spec.projB (m ((c.tc : Thread nD τ).loc main_arg0)) (m ((c.tc : Thread nD τ).loc main_arg2)) (((cfg0.win 6).blk t).view.emb j)
  refine blk6 _ _ _ _ t.val (xblk_launch m ρ c t) ((wblk1 (V1 m ρ) c t).trans (V1_v0 m ρ c)) j _ ?_ ?_
  · show win0_6.index t 0 * 2000 + 1 * (j 0).val = _; rw [e0]; omega
  · show win0_6.index t 1 * 256 + 1 * (j 1).val = _; rw [e1]; omega

/-- Point t writes back block t of x · W_comb + b_comb. -/
theorem flushed7 (c : Dev nD) (t : Fin cfg0.N) :
    (dat0 (F := Ideal) (V1 m ρ) c).flushed 7 t = ((cfg0.win 7).blk t).view.read (Elt Ideal)
      (Cert.Spec.projC (m ((c.tc : Thread nD τ).loc main_arg0)) (m ((c.tc : Thread nD τ).loc main_arg3)) (m ((c.tc : Thread nD τ).loc main_arg4))) := by
  show (cfg0.win 7).cut (grid0.coords t) ((dat0 (F := Ideal) (V1 m ρ) c).after 7 t) = _
  rw [after0_7]
  unfold out0_7
  rw [View.canon_unit_zero hz]
  simp only [View.ld_unit_zero (S := S2000x512) hz, View.ld_unit_zero (S := S512x32) hz, View.ld_unit_zero (S := S1x32) hz]
  obtain ⟨-, ⟨e0, e1⟩, -⟩ := idx_o t
  funext j
  show k0_pay3 (F := Ideal) (iblk0 (V1 m ρ) c 0 t) (iblk0 (V1 m ρ) c 2 t) (iblk0 (V1 m ρ) c 3 t) j
    = Cert.Spec.projC (m ((c.tc : Thread nD τ).loc main_arg0)) (m ((c.tc : Thread nD τ).loc main_arg3)) (m ((c.tc : Thread nD τ).loc main_arg4)) (((cfg0.win 7).blk t).view.emb j)
  refine blk7 _ _ _ _ _ _ t.val (xblk_launch m ρ c t) ((wblk2 (V1 m ρ) c t).trans (V1_v1 m ρ c))
    ((wblk3 (V1 m ρ) c t).trans (V1_v3 m ρ c)) j _ ?_ ?_
  · show win0_7.index t 0 * 2000 + 1 * (j 0).val = _; rw [e0]; omega
  · show win0_7.index t 1 * 32 + 1 * (j 1).val = _; rw [e1]; omega

/-- Point t writes back block t of x · W_res + b_res. -/
theorem flushed8 (c : Dev nD) (t : Fin cfg0.N) :
    (dat0 (F := Ideal) (V1 m ρ) c).flushed 8 t = ((cfg0.win 8).blk t).view.read (Elt Ideal)
      (Cert.Spec.projR (m ((c.tc : Thread nD τ).loc main_arg0)) (m ((c.tc : Thread nD τ).loc main_arg6)) (m ((c.tc : Thread nD τ).loc main_arg7))) := by
  show (cfg0.win 8).cut (grid0.coords t) ((dat0 (F := Ideal) (V1 m ρ) c).after 8 t) = _
  rw [after0_8]
  unfold out0_8
  rw [View.canon_unit_zero hz]
  simp only [View.ld_unit_zero (S := S2000x512) hz, View.ld_unit_zero (S := S512x512) hz, View.ld_unit_zero (S := S1x512) hz]
  obtain ⟨-, -, e0, e1⟩ := idx_o t
  funext j
  show k0_pay4 (F := Ideal) (iblk0 (V1 m ρ) c 0 t) (iblk0 (V1 m ρ) c 4 t) (iblk0 (V1 m ρ) c 5 t) j
    = Cert.Spec.projR (m ((c.tc : Thread nD τ).loc main_arg0)) (m ((c.tc : Thread nD τ).loc main_arg6)) (m ((c.tc : Thread nD τ).loc main_arg7)) (((cfg0.win 8).blk t).view.emb j)
  refine blk8 _ _ _ _ _ _ t.val (xblk_launch m ρ c t) ((wblk4 (V1 m ρ) c t).trans (V1_v2 m ρ c))
    ((wblk5 (V1 m ρ) c t).trans (V1_v4 m ρ c)) j _ ?_ ?_
  · show win0_8.index t 0 * 2000 + 1 * (j 0).val = _; rw [e0]; omega
  · show win0_8.index t 1 * 512 + 1 * (j 1).val = _; rw [e1]; omega

/-- An index of an output array is in point t's block iff each coordinate is in the block's range on its axis. -/
theorem mem_blk6 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v5_0).slice (win0_6.rect t)).set ↔ _
  rw [View.set_slice_whole, Rect.mem_set_unit]
  exact Iff.rfl

theorem mem_blk7 (t : Fin cfg0.N) (i : S50000x32.Idx) :
    i ∈ ((cfg0.win 7).blk t).view.set ↔ ∀ a : Fin 2, win0_7.index t a * S2000x32.size a ≤ (i a).val ∧ (i a).val < win0_7.index t a * S2000x32.size a + S2000x32.size a := by
  show i ∈ ((View.whole main_v5_1).slice (win0_7.rect t)).set ↔ _
  rw [View.set_slice_whole, Rect.mem_set_unit]
  exact Iff.rfl

theorem mem_blk8 (t : Fin cfg0.N) (i : S50000x512.Idx) :
    i ∈ ((cfg0.win 8).blk t).view.set ↔ ∀ a : Fin 2, win0_8.index t a * S2000x512.size a ≤ (i a).val ∧ (i a).val < win0_8.index t a * S2000x512.size a + S2000x512.size a := by
  show i ∈ ((View.whole main_v5_2).slice (win0_8.rect t)).set ↔ _
  rw [View.set_slice_whole, Rect.mem_set_unit]
  exact Iff.rfl

/-- Row r of an output array is in the block of point r / 2000, and every point writes back. -/
theorem cover6 (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ : ∃ t : Fin cfg0.N, t.val = (i 0).val / 2000 := ⟨⟨(i 0).val / 2000, by rw [show cfg0.N = 25 from N_0]; omega⟩, rfl⟩
  obtain ⟨⟨e0, e1⟩, -⟩ := idx_o t
  refine ⟨t, flush0_6 t, ?_⟩
  rw [mem_blk6]
  intro a
  match a with
  | ⟨0, _⟩ => show win0_6.index t 0 * 2000 ≤ (i 0).val ∧ (i 0).val < win0_6.index t 0 * 2000 + 2000; rw [e0, ht]; omega
  | ⟨1, _⟩ => show win0_6.index t 1 * 256 ≤ (i 1).val ∧ (i 1).val < win0_6.index t 1 * 256 + 256; rw [e1]; omega

theorem cover7 (i : S50000x32.Idx) : ∃ t : Fin cfg0.N, (cfg0.win 7).flush t = true ∧ i ∈ ((cfg0.win 7).blk t).view.set := by
  have hi0 : (i 0).val < 50000 := (i 0).isLt
  have hi1 : (i 1).val < 32 := (i 1).isLt
  obtain ⟨t, ht⟩ : ∃ t : Fin cfg0.N, t.val = (i 0).val / 2000 := ⟨⟨(i 0).val / 2000, by rw [show cfg0.N = 25 from N_0]; omega⟩, rfl⟩
  obtain ⟨-, ⟨e0, e1⟩, -⟩ := idx_o t
  refine ⟨t, flush0_7 t, ?_⟩
  rw [mem_blk7]
  intro a
  match a with
  | ⟨0, _⟩ => show win0_7.index t 0 * 2000 ≤ (i 0).val ∧ (i 0).val < win0_7.index t 0 * 2000 + 2000; rw [e0, ht]; omega
  | ⟨1, _⟩ => show win0_7.index t 1 * 32 ≤ (i 1).val ∧ (i 1).val < win0_7.index t 1 * 32 + 32; rw [e1]; omega

theorem cover8 (i : S50000x512.Idx) : ∃ t : Fin cfg0.N, (cfg0.win 8).flush t = true ∧ i ∈ ((cfg0.win 8).blk t).view.set := by
  have hi0 : (i 0).val < 50000 := (i 0).isLt
  have hi1 : (i 1).val < 512 := (i 1).isLt
  obtain ⟨t, ht⟩ : ∃ t : Fin cfg0.N, t.val = (i 0).val / 2000 := ⟨⟨(i 0).val / 2000, by rw [show cfg0.N = 25 from N_0]; omega⟩, rfl⟩
  obtain ⟨-, -, e0, e1⟩ := idx_o t
  refine ⟨t, flush0_8 t, ?_⟩
  rw [mem_blk8]
  intro a
  match a with
  | ⟨0, _⟩ => show win0_8.index t 0 * 2000 ≤ (i 0).val ∧ (i 0).val < win0_8.index t 0 * 2000 + 2000; rw [e0, ht]; omega
  | ⟨1, _⟩ => show win0_8.index t 1 * 512 ≤ (i 1).val ∧ (i 1).val < win0_8.index t 1 * 512 + 512; rw [e1]; omega

theorem bases_eq (c : Dev nD) :
    (dat0 (F := Ideal) (V1 m ρ) c).arrAt 6 cfg0.N = Cert.Spec.projB (m ((c.tc : Thread nD τ).loc main_arg0)) (m ((c.tc : Thread nD τ).loc main_arg2)) :=
  (dat0 (F := Ideal) (V1 m ρ) c).arrAt_eq_of_cover 6 _ (fun t _ => flushed6 m ρ c t) cover6

theorem comb_eq (c : Dev nD) :
    (dat0 (F := Ideal) (V1 m ρ) c).arrAt 7 cfg0.N = Cert.Spec.projC (m ((c.tc : Thread nD τ).loc main_arg0)) (m ((c.tc : Thread nD τ).loc main_arg3)) (m ((c.tc : Thread nD τ).loc main_arg4)) :=
  (dat0 (F := Ideal) (V1 m ρ) c).arrAt_eq_of_cover 7 _ (fun t _ => flushed7 m ρ c t) cover7

theorem res_eq (c : Dev nD) :
    (dat0 (F := Ideal) (V1 m ρ) c).arrAt 8 cfg0.N = Cert.Spec.projR (m ((c.tc : Thread nD τ).loc main_arg0)) (m ((c.tc : Thread nD τ).loc main_arg6)) (m ((c.tc : Thread nD τ).loc main_arg7)) :=
  (dat0 (F := Ideal) (V1 m ρ) c).arrAt_eq_of_cover 8 _ (fun t _ => flushed8 m ρ c t) cover8

end Cert.KernelIdeal.Proj

end
-- ==== Proof.CombineMix.lean ====
/-
  Region 1's first payload on one block of 2000 rows: per head and feature the sum over the four bases, plus the
  output bias.
-/
import proofs.«131571_j76828374991621_1_alg».proof.Proof.Gen.KernelIdeal.Skeleton
import proofs.«131571_j76828374991621_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb

open Cert.KernelIdeal Cert.KernelIdeal.Gen
open Idealize.ShloMosaic Idealize.ShloMosaic.TcCoe Idealize.SL.Sem Idealize.ShloMosaic.ValueIdx

/-! ## The layout steps, each read at explicit coordinates -/

section Layout
variable {α : Type}

/-- A row of 32 viewed as 8 heads of 4 bases: position (p, h, b) is column 4h + b of row p. -/
theorem heads_apply (x : S2000x32.Idx → α) (hc : S2000x32.ShapeCasts S2000x8x4) (p : Fin 2000) (h : Fin 8) (b : Fin 4) :
    shapeCast S2000x8x4 x hc (ix3 p h b) = x (ix2 p ⟨h.val * 4 + b.val, by have := h.isLt; have := b.isLt; omega⟩) := by
  refine shapeCast_apply x hc _ _ ?_
  rw [Shape.rowMajor_val_two, Shape.rowMajor_val_three]
  show p.val * 32 + (h.val * 4 + b.val) = (p.val * 8 + h.val) * 4 + b.val
  omega

/-- A row of 256 viewed as 4 bases of 64 features: position (p, b, f) is column 64b + f of row p. -/
theorem bases_apply (x : S2000x256.Idx → α) (hc : S2000x256.ShapeCasts S2000x4x64) (p : Fin 2000) (b : Fin 4) (f : Fin 64) :
    shapeCast S2000x4x64 x hc (ix3 p b f) = x (ix2 p ⟨b.val * 64 + f.val, by have := b.isLt; have := f.isLt; omega⟩) := by
  refine shapeCast_apply x hc _ _ ?_
  rw [Shape.rowMajor_val_two, Shape.rowMajor_val_three]
  show p.val * 256 + (b.val * 64 + f.val) = (p.val * 4 + b.val) * 64 + f.val
  omega

/-- 8 heads of 64 features flattened to a row of 512: column q is head q / 64, feature q % 64. -/
theorem flat_apply (v : S2000x8x64.Idx → α) (hc : S2000x8x64.ShapeCasts S2000x512) (p : Fin 2000) (q : Fin 512) :
    shapeCast S2000x512 v hc (ix2 p q)
      = v (ix3 p (⟨q.val / 64, by have := q.isLt; omega⟩ : Fin 8) (⟨q.val % 64, by omega⟩ : Fin 64)) := by
  have hq := q.isLt
  refine shapeCast_apply v hc _ _ ?_
  rw [Shape.rowMajor_val_two, Shape.rowMajor_val_three]
  show (p.val * 8 + q.val / 64) * 64 + q.val % 64 = p.val * 512 + q.val
  omega

/-- Base b's weight of each head, cut out with its unit axis kept and repeated over the 64 features:
    position (p, h, f) reads the weight at (p, h, b). -/
theorem headWeight_apply (v : S2000x8x4.Idx → α) (b : Nat) (hb : b < 4) (hs : S2000x8x4.Slices ![0, 0, b] S2000x8x1)
    (h1 : S2000x8x1.ShapeCasts S2000x8) (h2 : S2000x8.ShapeCasts S2000x8x1) (hB : S2000x8x1.Broadcasts S2000x8x64)
    (p : Fin 2000) (h : Fin 8) (f : Fin 64) :
    broadcastTo S2000x8x64 (shapeCast S2000x8x1 (shapeCast S2000x8 (extractStridedSlice S2000x8x1 ![0, 0, b] v hs) h1) h2) hB
        (ix3 p h f) = v (ix3 p h (⟨b, hb⟩ : Fin 4)) := by
  rw [shapeCast_shapeCast]
  refine (broadcastTo_apply _ hB (ix3 p h f) (ix3 p h (0 : Fin 1)) fun a => ?_).trans ?_
  · match a with
    | ⟨0, _⟩ => rfl
    | ⟨1, _⟩ => rfl
    | ⟨2, _⟩ => rfl
  · refine extractStridedSlice_apply _ v hs _ _ fun a => ?_
    match a with
    | ⟨0, _⟩ => show p.val = 0 + p.val; omega
    | ⟨1, _⟩ => show h.val = 0 + h.val; omega
    | ⟨2, _⟩ => show b = b + 0; omega

/-- Base b's 64 features, cut out with its unit axis kept and repeated over the 8 heads:
    position (p, h, f) reads the feature at (p, b, f). -/
theorem baseFeature_apply (v : S2000x4x64.Idx → α) (b : Nat) (hb : b < 4) (hs : S2000x4x64.Slices ![0, b, 0] S2000x1x64)
    (h1 : S2000x1x64.ShapeCasts S2000x64) (h2 : S2000x64.ShapeCasts S2000x1x64) (hB : S2000x1x64.Broadcasts S2000x8x64)
    (p : Fin 2000) (h : Fin 8) (f : Fin 64) :
    broadcastTo S2000x8x64 (shapeCast S2000x1x64 (shapeCast S2000x64 (extractStridedSlice S2000x1x64 ![0, b, 0] v hs) h1) h2) hB
        (ix3 p h f) = v (ix3 p (⟨b, hb⟩ : Fin 4) f) := by
  rw [shapeCast_shapeCast]
  refine (broadcastTo_apply _ hB (ix3 p h f) (ix3 p (0 : Fin 1) f) fun a => ?_).trans ?_
  · match a with
    | ⟨0, _⟩ => rfl
    | ⟨1, _⟩ => rfl
    | ⟨2, _⟩ => rfl
  · refine extractStridedSlice_apply _ v hs _ _ fun a => ?_
    match a with
    | ⟨0, _⟩ => show p.val = 0 + p.val; omega
    | ⟨1, _⟩ => show b = b + 0; omega
    | ⟨2, _⟩ => show f.val = 0 + f.val; omega

end Layout

/-! ## One base's term, and the block -/

/-- One base's term of the sum: the head's weight for base b times base b's feature. With h the head and f the feature,
    position (p, h, f) is x0[p, 4h + b] · x1[p, 64b + f]. -/
theorem term_apply (x0 : FVec Ideal S2000x32 .f32) (x1 : FVec Ideal S2000x256 .f32)
    (c0 : S2000x32.ShapeCasts S2000x32) (c1 : S2000x32.ShapeCasts S2000x8x4)
    (d0 : S2000x256.ShapeCasts S2000x256) (d1 : S2000x256.ShapeCasts S2000x4x64) (b : Nat) (hb : b < 4)
    (hs : S2000x8x4.Slices ![0, 0, b] S2000x8x1) (h1 : S2000x8x1.ShapeCasts S2000x8) (h2 : S2000x8.ShapeCasts S2000x8x1)
    (hB : S2000x8x1.Broadcasts S2000x8x64)
    (ht : S2000x4x64.Slices ![0, b, 0] S2000x1x64) (t1 : S2000x1x64.ShapeCasts S2000x64) (t2 : S2000x64.ShapeCasts S2000x1x64)
    (tB : S2000x1x64.Broadcasts S2000x8x64) (p : Fin 2000) (h : Fin 8) (f : Fin 64) :
    mulf
        (broadcastTo S2000x8x64 (shapeCast S2000x8x1 (shapeCast S2000x8
          (extractStridedSlice S2000x8x1 ![0, 0, b] (shapeCast S2000x8x4 (shapeCast S2000x32 x0 c0) c1) hs) h1) h2) hB)
        (broadcastTo S2000x8x64 (shapeCast S2000x1x64 (shapeCast S2000x64
          (extractStridedSlice S2000x1x64 ![0, b, 0] (shapeCast S2000x4x64 (shapeCast S2000x256 x1 d0) d1) ht) t1) t2) tB)
        (ix3 p h f)
      = x0 (ix2 p ⟨h.val * 4 + b, by have := h.isLt; omega⟩) * x1 (ix2 p ⟨b * 64 + f.val, by have := f.isLt; omega⟩) := by
  refine (mulf_apply _ _ _).trans (congrArg₂ (· * ·) ?_ ?_)
  · refine (headWeight_apply _ b hb hs h1 h2 hB p h f).trans ?_
    rw [shapeCast_self]
    exact heads_apply x0 c1 p h ⟨b, hb⟩
  · refine (baseFeature_apply _ b hb ht t1 t2 tB p h f).trans ?_
    rw [shapeCast_self]
    exact bases_apply x1 d1 p ⟨b, hb⟩ f

/-- Column q of row p of the block's first payload: with h = q / 64 and f = q % 64, the sum over the four bases b of
    x0[p, 4h + b] · x1[p, 64b + f], plus the bias x3[0, q]. The running sum starts at the zero splat, which adds nothing. -/
theorem mix_block (x0 : Vec Ideal S2000x32 .f32) (x1 : Vec Ideal S2000x256 .f32) (x3 : Vec Ideal S1x512 .f32) (p : Fin 2000) (q : Fin 512) :
    k1_pay2 (F := Ideal) x0 x1 x3 (ix2 p q) = Cert.Spec.mix (R := 2000) x0 x1 p q + x3 (ix2 0 q) := by
  have hq := q.isLt
  unfold k1_pay2
  refine (addf_apply _ _ _).trans (congrArg₂ (· + ·) ?_ ?_)
  · -- the flattened sum at column q is the sum at head q / 64, feature q % 64
    refine (flat_apply _ _ p q).trans ?_
    unfold Cert.Spec.mix
    rw [Fin.sum_univ_four]
    refine (addf_apply _ _ _).trans (congrArg₂ (· + ·) ?_ (term_apply x0 x1 _ _ _ _ 3 (by omega) _ _ _ _ _ _ _ _ p _ _))
    refine (addf_apply _ _ _).trans (congrArg₂ (· + ·) ?_ (term_apply x0 x1 _ _ _ _ 2 (by omega) _ _ _ _ _ _ _ _ p _ _))
    refine (addf_apply _ _ _).trans (congrArg₂ (· + ·) ?_ (term_apply x0 x1 _ _ _ _ 1 (by omega) _ _ _ _ _ _ _ _ p _ _))
    refine (addf_apply _ _ _).trans ?_
    refine (congrArg₂ (· + ·) Ideal.ofBits_zero_f32 (term_apply x0 x1 _ _ _ _ 0 (by omega) _ _ _ _ _ _ _ _ p _ _)).trans ?_
    exact zero_add _
  · -- the bias row, repeated over the 2000 rows
    refine (broadcastTo_1b_ab_apply _ _ p q).trans ?_
    rw [shapeCast_self]

end Cert.KernelIdeal.Comb

end
-- ==== Proof.CombineNorm.lean ====
/-
  Region 1's second payload on one block of 2000 rows: the residual added, then each row normalised, scaled,
  shifted and clipped.

  Read at entry (p, q), every elementwise operation of the payload is that operation on the entries at (p, q); the
  two lane sums are sums over the 512 entries of row p; the column [2000] → [2000, 1] → [2000, 512] carries row p's
  number to every entry of row p; and the rows γ and β, of shape [1, 512], are read at column q. What is left is,
  term by term, the specification's normalised row: mean = (row sum) / 512, variance = (sum of squared deviations)
  / 512, (entry − mean) · rsqrt(variance + ε) · γ + β, clipped below at 0.
-/
import proofs.«131571_j76828374991621_1_alg».proof.Proof.Gen.KernelIdeal.Skeleton
import proofs.«131571_j76828374991621_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb

open Cert.KernelIdeal Cert.KernelIdeal.Gen
open Idealize.ShloMosaic Idealize.ShloMosaic.TcCoe Idealize.SL.Sem Idealize.ShloMosaic.ValueIdx

/-! ## A column of row numbers: [a] → [a, 1] → [a, b] -/

/-- An [a] array cast to [a, 1] reads, at (i, u), the operand at i, whatever the unit coordinate u: both indices
    have row-major position i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one entry of row p. (On axis 0 the operand's
    coordinate is p, also when a = 1, where p = 0; on the unit axis 1 it is 0.) -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum read at a row -/

/-- The index over row p with lane k put back on axis 1 is (p, k). -/
private theorem lift_row (h : S2000x512.Reduces [1] S2000) (p : Fin 2000) (k : Fin 512) :
    h.lift (ix1 p) k = ix2 p k := by
  funext c; apply Fin.ext
  fin_cases c <;> rfl

/-- The sum over axis 1 of a [2000, 512] array, read at row p, is the sum of that row's 512 entries. -/
private theorem laneSum_apply (w : FVec Ideal S2000x512 .f32) (h : S2000x512.Reduces [1] S2000)
    (hφ : FKind.Formats .f32) (hacc : (0x00000000#32 : BitVec 32) = FKind.add.neutral .f32 hφ) (p : Fin 2000) :
    multiReduction (F := Ideal) .add [1] S2000 w 0x00000000#32 h hφ hacc (ix1 p) = ∑ k : Fin 512, w (ix2 p k) := by
  refine (Ideal.multiReduction_add_single w 0x00000000#32 h hφ hacc (ix1 p)).trans ?_
  exact Finset.sum_congr rfl fun k _ => congrArg w (lift_row h p k)

/-- The reciprocal root of an array read at an index is the reciprocal root of its entry there. -/
private theorem rsqrt_apply {s : Shape} {φ : FTy} (a : FVec Ideal s φ) (i : s.Idx) : rsqrt a i = Ideal.rsqrt (a i) := rfl

/-! ## The payload at (p, q) -/

/-- Entry (p, q) of the payload is the normalised, scaled, shifted and clipped row j ↦ v51[p, j] + x2[p, j] at q,
    with γ = x4[0, ·] and β = x5[0, ·]. Every operation is read at its index; the row's mean and variance come out as
    the quotients by the float 512 of the lane sums over row p, which is how the specification writes them. -/
theorem norm_block (v51 : FVec Ideal S2000x512 .f32) (x2 : Vec Ideal S2000x512 .f32) (x4 x5 : Vec Ideal S1x512 .f32) (p : Fin 2000) (q : Fin 512) :
    k1_pay1 (F := Ideal) v51 x2 x4 x5 (ix2 p q)
      = Cert.Spec.normOf (fun j => v51 (ix2 p j) + x2 (ix2 p j)) (fun j => x4 (ix2 0 j)) (fun j => x5 (ix2 0 j)) q := by
  unfold k1_pay1
  simp only [maximumf_apply, addf_apply, mulf_apply, subf_apply, divf_apply, rsqrt_apply, broadcast_apply,
    shapeCast_self, broadcastTo_a1_ab_apply, broadcastTo_1b_ab_apply, shapeCast_a_a1_apply,
    laneSum_apply _ reduces_S2000x512_S2000 (.inl rfl) rfl, Ideal.ofBits_def]
  unfold Cert.Spec.normOf Cert.Spec.varOf Cert.Spec.meanOf
  rfl

end Cert.KernelIdeal.Comb

end
-- ==== Proof.Combine.lean ====
/-
  Region 1 of the kernel's program: what its output array holds after the region, from the arrays it is entered with.
  A block of 2000 rows of the output is the row function of the same 2000 rows of the three row-blocked inputs, and
  a row's value depends on that row alone, so the blocks are the restrictions of the row function of the whole arrays.
-/
import proofs.«131571_j76828374991621_1_alg».proof.Proof.Gen.KernelIdeal.Frame
import proofs.«131571_j76828374991621_1_alg».proof.Proof.Spec
import proofs.«131571_j76828374991621_1_alg».proof.Proof.CombineMix
import proofs.«131571_j76828374991621_1_alg».proof.Proof.CombineNorm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb

open Cert.KernelIdeal Cert.KernelIdeal.Gen
open Idealize.ShloMosaic Idealize.ShloMosaic.TcCoe Idealize.SL.Sem Idealize.ShloMosaic.ValueIdx
open Idealize.ShloMosaic.Pipeline (Dat)

/-- The body's stored value on one block is the row function of the block's inputs. -/
theorem block_eq (x0 : Vec Ideal S2000x32 .f32) (x1 : Vec Ideal S2000x256 .f32) (x2 : Vec Ideal S2000x512 .f32) (x3 x4 x5 : Vec Ideal S1x512 .f32) :
    k1_pay1 (F := Ideal) (k1_pay2 x0 x1 x3) x2 x4 x5
      = Cert.Spec.rowNorm (R := 2000) x0 x1 x2 (fun j => x3 (ix2 0 j)) (fun j => x4 (ix2 0 j)) (fun j => x5 (ix2 0 j)) := by
  funext y
  obtain ⟨p, q, rfl⟩ : ∃ (p : Fin 2000) (q : Fin 512), y = ix2 p q := ⟨y 0, y 1, eq_ix2 y⟩
  rw [norm_block]
  show Cert.Spec.normOf _ _ _ q = Cert.Spec.normOf (Cert.Spec.pre (R := 2000) x0 x1 x2 (fun j => x3 (ix2 0 j)) p) _ _ q
  congr 1
  funext j
  rw [mix_block]
  rfl

/-- The zero offsets of a whole-block access, however they are spelt. -/
theorem hz : (![0, 0] : Fin 2 → Nat) = fun _ => 0 := funext fun a => by
  match a with
  | ⟨0, _⟩ => rfl
  | ⟨1, _⟩ => rfl

/-- The block indices over the grid: at point t the three row-blocked inputs and the output sit at block (t, 0),
    the three one-row inputs at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of a block and row n of the whole arrays: if the three row-blocked inputs agree on those rows and the three
    one-row inputs are the same, the block's row function at (p, q) is the whole arrays' at (n, q). -/
theorem row_glue (x0 : Vec Ideal S2000x32 .f32) (x1 : Vec Ideal S2000x256 .f32) (x2 : Vec Ideal S2000x512 .f32)
    (x3 x4 x5 : Vec Ideal S1x512 .f32)
    (A0 : Vec Ideal S50000x32 .f32) (A1 : Vec Ideal S50000x256 .f32) (A2 : Vec Ideal S50000x512 .f32)
    (A3 A4 A5 : Vec Ideal S1x512 .f32) (p : Fin 2000) (n : Fin 50000) (q : Fin 512)
    (h0 : ∀ k : Fin 32, x0 (ix2 p k) = A0 (ix2 n k)) (h1 : ∀ k : Fin 256, x1 (ix2 p k) = A1 (ix2 n k))
    (h2 : ∀ k : Fin 512, x2 (ix2 p k) = A2 (ix2 n k))
    (h3 : ∀ j : Fin 512, x3 (ix2 0 j) = A3 (ix2 0 j)) (h4 : ∀ j : Fin 512, x4 (ix2 0 j) = A4 (ix2 0 j))
    (h5 : ∀ j : Fin 512, x5 (ix2 0 j) = A5 (ix2 0 j)) :
    Cert.Spec.rowNorm (R := 2000) x0 x1 x2 (fun j => x3 (ix2 0 j)) (fun j => x4 (ix2 0 j)) (fun j => x5 (ix2 0 j)) (ix2 p q)
      = Cert.Spec.rowNorm (R := 50000) A0 A1 A2 (fun j => A3 (ix2 0 j)) (fun j => A4 (ix2 0 j)) (fun j => A5 (ix2 0 j)) (ix2 n q) := by
  rw [show (fun j => x3 (ix2 0 j)) = fun j => A3 (ix2 0 j) from funext h3,
    show (fun j => x4 (ix2 0 j)) = fun j => A4 (ix2 0 j) from funext h4,
    show (fun j => x5 (ix2 0 j)) = fun j => A5 (ix2 0 j) from funext h5]
  exact Cert.Spec.rowNorm_row x0 x1 x2 A0 A1 A2 _ _ _ p n h0 h1 h2 q

variable (V : (c : Dev nD) → (b : Ref sig .tc) → Buf (Elt Ideal) ((c : Thread nD τ).loc b))

/-- Row p of point t's block of the first row-blocked input is row 2000·t + p of its array. -/
theorem blk0_apply (c : Dev nD) (t : Fin cfg1.N) (p : Fin 2000) (k : Fin 32) (h : 2000 * t.val + p.val < 50000) :
    (iblk1 (F := Ideal) V c 0 t : Vec Ideal S2000x32 .f32) (ix2 p k)
      = (V c main_v5_1 : Vec Ideal S50000x32 .f32) (ix2 ⟨2000 * t.val + p.val, h⟩ k) := by
  obtain ⟨e0, e1, -⟩ := idx_facts t
  unfold iblk1
  show V c main_v5_1 (((cfg1.win 0).blk t).view.emb (ix2 p k)) = _
  congr 1
  funext a
  apply Fin.ext
  match a with
  | ⟨0, _⟩ => show win1_0.index t (0 : Fin 2) * 2000 + 1 * p.val = 2000 * t.val + p.val; omega
  | ⟨1, _⟩ => show win1_0.index t (1 : Fin 2) * 32 + 1 * k.val = k.val; omega

/-- The same for the second row-blocked input. -/
theorem blk1_apply (c : Dev nD) (t : Fin cfg1.N) (p : Fin 2000) (k : Fin 256) (h : 2000 * t.val + p.val < 50000) :
    (iblk1 (F := Ideal) V c 1 t : Vec Ideal S2000x256 .f32) (ix2 p k)
      = (V c main_v50 : Vec Ideal S50000x256 .f32) (ix2 ⟨2000 * t.val + p.val, h⟩ k) := by
  obtain ⟨-, -, e0, e1, -⟩ := idx_facts t
  unfold iblk1
  show V c main_v50 (((cfg1.win 1).blk t).view.emb (ix2 p k)) = _
  congr 1
  funext a
  apply Fin.ext
  match a with
  | ⟨0, _⟩ => show win1_1.index t (0 : Fin 2) * 2000 + 1 * p.val = 2000 * t.val + p.val; omega
  | ⟨1, _⟩ => show win1_1.index t (1 : Fin 2) * 256 + 1 * k.val = k.val; omega

/-- The same for the third row-blocked input. -/
theorem blk2_apply (c : Dev nD) (t : Fin cfg1.N) (p : Fin 2000) (k : Fin 512) (h : 2000 * t.val + p.val < 50000) :
    (iblk1 (F := Ideal) V c 2 t : Vec Ideal S2000x512 .f32) (ix2 p k)
      = (V c main_v5_2 : Vec Ideal S50000x512 .f32) (ix2 ⟨2000 * t.val + p.val, h⟩ k) := by
  obtain ⟨-, -, -, -, e0, e1, -⟩ := idx_facts t
  unfold iblk1
  show V c main_v5_2 (((cfg1.win 2).blk t).view.emb (ix2 p k)) = _
  congr 1
  funext a
  apply Fin.ext
  match a with
  | ⟨0, _⟩ => show win1_2.index t (0 : Fin 2) * 2000 + 1 * p.val = 2000 * t.val + p.val; omega
  | ⟨1, _⟩ => show win1_2.index t (1 : Fin 2) * 512 + 1 * k.val = k.val; omega

/-- The first one-row input's block at every point is its whole array. -/
theorem blk3_apply (c : Dev nD) (t : Fin cfg1.N) (j : Fin 512) :
    (iblk1 (F := Ideal) V c 3 t : Vec Ideal S1x512 .f32) (ix2 0 j) = (V c main_v51 : Vec Ideal S1x512 .f32) (ix2 0 j) := by
  obtain ⟨-, -, -, -, -, -, e0, e1, -⟩ := idx_facts t
  unfold iblk1
  show V c main_v51 (((cfg1.win 3).blk t).view.emb (ix2 0 j)) = _
  congr 1
  funext a
  apply Fin.ext
  match a with
  | ⟨0, _⟩ => show win1_3.index t (0 : Fin 2) * 1 + 1 * 0 = 0; omega
  | ⟨1, _⟩ => show win1_3.index t (1 : Fin 2) * 512 + 1 * j.val = j.val; omega

/-- The same for the second one-row input. -/
theorem blk4_apply (c : Dev nD) (t : Fin cfg1.N) (j : Fin 512) :
    (iblk1 (F := Ideal) V c 4 t : Vec Ideal S1x512 .f32) (ix2 0 j) = (V c main_v52 : Vec Ideal S1x512 .f32) (ix2 0 j) := by
  obtain ⟨-, -, -, -, -, -, -, -, e0, e1, -⟩ := idx_facts t
  unfold iblk1
  show V c main_v52 (((cfg1.win 4).blk t).view.emb (ix2 0 j)) = _
  congr 1
  funext a
  apply Fin.ext
  match a with
  | ⟨0, _⟩ => show win1_4.index t (0 : Fin 2) * 1 + 1 * 0 = 0; omega
  | ⟨1, _⟩ => show win1_4.index t (1 : Fin 2) * 512 + 1 * j.val = j.val; omega

/-- The same for the third one-row input. -/
theorem blk5_apply (c : Dev nD) (t : Fin cfg1.N) (j : Fin 512) :
    (iblk1 (F := Ideal) V c 5 t : Vec Ideal S1x512 .f32) (ix2 0 j) = (V c main_v53 : Vec Ideal S1x512 .f32) (ix2 0 j) := by
  obtain ⟨-, -, -, -, -, -, -, -, -, -, e0, e1, -⟩ := idx_facts t
  unfold iblk1
  show V c main_v53 (((cfg1.win 5).blk t).view.emb (ix2 0 j)) = _
  congr 1
  funext a
  apply Fin.ext
  match a with
  | ⟨0, _⟩ => show win1_5.index t (0 : Fin 2) * 1 + 1 * 0 = 0; omega
  | ⟨1, _⟩ => show win1_5.index t (1 : Fin 2) * 512 + 1 * j.val = j.val; omega

/-- The row function of the whole arrays the region is entered with. -/
abbrev whole (c : Dev nD) : Vec Ideal S50000x512 .f32 :=
  Cert.Spec.rowNorm (R := 50000) (V c main_v5_1) (V c main_v50) (V c main_v5_2)
    (fun j => V c main_v51 (ix2 0 j)) (fun j => V c main_v52 (ix2 0 j)) (fun j => V c main_v53 (ix2 0 j))

/-- What point t writes back is block t of the row function of the whole arrays. -/
theorem flushed_eq (c : Dev nD) (t : Fin cfg1.N) :
    (dat1 (F := Ideal) V c).flushed 6 t = ((cfg1.win 6).blk t).view.read (Elt Ideal) (whole V c) := by
  show (cfg1.win 6).cut (grid1.coords t) ((dat1 V c).after 6 t) = _
  rw [after1_6]
  unfold out1_6
  rw [View.canon_unit_zero hz]
  simp only [View.ld_unit_zero (S := S2000x32) hz, View.ld_unit_zero (S := S2000x256) hz,
    View.ld_unit_zero (S := S2000x512) hz, View.ld_unit_zero (S := S1x512) hz]
  rw [block_eq]
  funext y
  obtain ⟨p, q, rfl⟩ : ∃ (p : Fin 2000) (q : Fin 512), y = ix2 p q := ⟨y 0, y 1, eq_ix2 y⟩
  have hN : cfg1.N = 25 := N_1
  have hp : 2000 * t.val + p.val < 50000 := by have := t.isLt; have := p.isLt; omega
  obtain ⟨-, -, -, -, -, -, -, -, -, -, -, -, e0, e1⟩ := idx_facts t
  have hemb : ((cfg1.win 6).blk t).view.emb (ix2 p q) = (ix2 ⟨2000 * t.val + p.val, hp⟩ q : S50000x512.Idx) := by
    funext a
    apply Fin.ext
    match a with
    | ⟨0, _⟩ => show win1_6.index t (0 : Fin 2) * 2000 + 1 * p.val = 2000 * t.val + p.val; omega
    | ⟨1, _⟩ => show win1_6.index t (1 : Fin 2) * 512 + 1 * q.val = q.val; omega
  show Cert.Spec.rowNorm (R := 2000) (iblk1 V c 0 t) (iblk1 V c 1 t) (iblk1 V c 2 t) (fun j => iblk1 V c 3 t (ix2 0 j))
      (fun j => iblk1 V c 4 t (ix2 0 j)) (fun j => iblk1 V c 5 t (ix2 0 j)) (ix2 p q)
    = whole V c (((cfg1.win 6).blk t).view.emb (ix2 p q))
  rw [hemb]
  exact row_glue (iblk1 V c 0 t) (iblk1 V c 1 t) (iblk1 V c 2 t) (iblk1 V c 3 t) (iblk1 V c 4 t) (iblk1 V c 5 t)
    (V c main_v5_1) (V c main_v50) (V c main_v5_2) (V c main_v51) (V c main_v52) (V c main_v53) p ⟨2000 * t.val + p.val, hp⟩ q
    (fun k => blk0_apply V c t p k hp) (fun k => blk1_apply V c t p k hp) (fun k => blk2_apply V c t p k hp)
    (fun j => blk3_apply V c t j) (fun j => blk4_apply V c t j) (fun j => blk5_apply V c t j)

/-- An index of the output array is in point t's block iff each coordinate is in the block's range on its axis. -/
theorem mem_blk (t : Fin cfg1.N) (i : S50000x512.Idx) :
    i ∈ ((cfg1.win 6).blk t).view.set
      ↔ ∀ a : Fin 2, win1_6.index t a * S2000x512.size a ≤ (i a).val
          ∧ (i a).val < win1_6.index t a * S2000x512.size a + S2000x512.size a := by
  show i ∈ ((View.whole main_v54).slice (win1_6.rect t)).set ↔ _
  rw [View.set_slice_whole, Rect.mem_set_unit]
  exact Iff.rfl

/-- Row r of the output array is in the block of point r / 2000: the 25 blocks of 2000 rows tile the 50000 rows. -/
theorem cover (i : S50000x512.Idx) :
    ∃ t : Fin cfg1.N, (cfg1.win 6).flush t = true ∧ i ∈ ((cfg1.win 6).blk t).view.set := by
  have hN : cfg1.N = 25 := N_1
  have hi0 : (i 0).val < 50000 := (i 0).isLt
  have hi1 : (i 1).val < 512 := (i 1).isLt
  let t : Fin cfg1.N := ⟨(i 0).val / 2000, by omega⟩
  obtain ⟨-, -, -, -, -, -, -, -, -, -, -, -, e0, e1⟩ := idx_facts t
  have ht : t.val = (i 0).val / 2000 := rfl
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 512 ≤ (i 1).val ∧ (i 1).val < win1_6.index t (1 : Fin 2) * 512 + 512
    omega

theorem out_eq (c : Dev nD) :
    (dat1 (F := Ideal) V c).arrAt 6 cfg1.N
      = Cert.Spec.rowNorm (R := 50000) (V c main_v5_1) (V c main_v50) (V c main_v5_2)
          (fun j => V c main_v51 (ix2 0 j)) (fun j => V c main_v52 (ix2 0 j)) (fun j => V c main_v53 (ix2 0 j)) := by
  exact (dat1 (F := Ideal) V c).arrAt_eq_of_cover 6 (whole V c) (fun t _ => flushed_eq V c t) cover

end Cert.KernelIdeal.Comb

end
-- ==== Proof.RefTerm.lean ====
/-
  The reference program's value, as composed terms of its own host operations, in stages.

  aggR: the symmetric-normalised aggregation over the edges. From the edge list (sources in row 0, targets in
  row 1, a self-loop appended for every node) the degree of a node is the number of edges into it, dinv is
  degree^(-1/2) where the degree is positive (else 0), an edge's weight is dinv[source] · dinv[target], and the
  aggregate at a node is the sum over the edges into it of weight · bases[source, :]. A negative index is
  wrapped by adding 50000, as jnp indexing does.

  tail: the per-head combination (a batched product over the 4 bases), the output bias, the residual branch
  and its bias, the row's mean and variance (the variance with 512 - ddof degrees of freedom, ddof = 0, guarded
  by a select on 512 - ddof > 0), the normalisation with ε, the scale γ and the shift β, and the clip at 0.
-/
import proofs.«131571_j76828374991621_1_alg».proof.ReferenceIdeal

noncomputable section

namespace Cert.ReferenceIdeal.Term

open Cert.ReferenceIdeal Idealize.ShloMosaic Idealize.SL.Sem
open Cert.ReferenceIdeal.Facts₀ Cert.ReferenceIdeal.Facts

variable {F : FTy → Type} [FloatOps F] [Cert.ReferenceIdeal.Facts]

/-- Row r of the edge list with the self-loops appended: 850000 node indices. -/
def ends0 (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

def ends1 (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- An index vector with negative entries wrapped by + 50000, as a column of gather indices. -/
def wrapCol (ix : (⟨S850000, .i32⟩ : BufTy).Contents (Elt F)) : (⟨S850000x1, .i32⟩ : BufTy).Contents (Elt F) :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- The in-degree of every node: ones scattered onto the targets. -/
def degree (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (ends1 ei))
    (broadcastInDim S850000 ![] bcast_S_S850000 (constant S_ .f32 0x3F800000#32))

/-- degree^(-1/2) where the degree is positive, else 0. -/
def dinv (ei : (⟨S2x800000, .i32⟩ : BufTy).Contents (Elt F)) : (⟨S50000, .f32⟩ : BufTy).Contents (Elt F) :=
  select (cmpf .ogt (degree ei) (broadcastInDim S50000 ![] bcast_S_S50000 (constant S_ .f32 0x00000000#32)))
    (Host.rsqrt (maximumf (degree ei) (broadcastInDim S50000 ![] bcast_S_S50000 (constant S_ .f32 0x3F800000#32))))
    (broadcastInDim S50000 ![] bcast_S_S50000 (id (constant S_ .f32 0x00000000#32)))

/-- An edge's weight: dinv at its source times dinv at its target. -/
def weight (ei : (⟨S2x800000, .i32⟩ : BufTy).Contents (Elt F)) : (⟨S850000, .f32⟩ : BufTy).Contents (Elt F) :=
  mulf (Host.gather gather_S50000_S850000x1_S850000_n_0_n_n_0_1_1 (dinv ei) (wrapCol (ends0 ei)))
    (Host.gather gather_S50000_S850000x1_S850000_n_0_n_n_0_1_1 (dinv ei) (wrapCol (ends1 ei)))

/-- The aggregate: the weighted source rows of `bases` summed onto the targets. -/
def aggR (bases : (⟨S50000x256, .f32⟩ : BufTy).Contents (Elt F)) (ei : (⟨S2x800000, .i32⟩ : BufTy).Contents (Elt F)) :
    (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 (ends1 ei))
    (mulf (Host.gather gather_S50000x256_S850000x1_S850000x256_1_0_n_n_0_1_1256 bases (wrapCol (ends0 ei)))
      (broadcastInDim S850000x256 ![0, 1] bcast_S850000x1_S850000x256_0_1
        (broadcastInDim S850000x1 ![0] bcast_S850000_S850000x1_0 (weight ei))))

/-- A [512] vector as every row of a [50000, 512] array. -/
def rows (v : (⟨S512, .f32⟩ : BufTy).Contents (Elt F)) : (⟨S50000x512, .f32⟩ : BufTy).Contents (Elt F) :=
  broadcastInDim S50000x512 ![0, 1] bcast_S1x512_S50000x512_0_1 (broadcastInDim S1x512 ![1] bcast_S512_S1x512_1 v)

/-- The row before normalisation: the batched product over the bases, reshaped to [50000, 512], plus the output bias,
    plus the residual product, plus the residual bias. -/
def preR (comb : (⟨S50000x32, .f32⟩ : BufTy).Contents (Elt F)) (agg : (⟨S50000x256, .f32⟩ : BufTy).Contents (Elt F))
    (xr : (⟨S50000x512, .f32⟩ : BufTy).Contents (Elt F)) (cb br : (⟨S512, .f32⟩ : BufTy).Contents (Elt F)) :
    (⟨S50000x512, .f32⟩ : BufTy).Contents (Elt F) :=
  addf (addf (addf
    (shapeCast S50000x512 (Host.dotGeneral dot_S50000x8x4_S50000x4x64_S50000x8x64_2_1_1_2_0_0 none
      (shapeCast S50000x8x4 comb shapeCasts_S50000x32_S50000x8x4) (shapeCast S50000x4x64 agg shapeCasts_S50000x256_S50000x4x64))
      shapeCasts_S50000x8x64_S50000x512)
    (rows cb)) xr) (rows br)

/-- The rows' means, as a [50000, 1] column. -/
def meanR (o : (⟨S50000x512, .f32⟩ : BufTy).Contents (Elt F)) : (⟨S50000x1, .f32⟩ : BufTy).Contents (Elt F) :=
  Host.divf (broadcastInDim S50000x1 ![0] bcast_S50000_S50000x1_0 (Host.reduceAdd o (constant S_ .f32 0x00000000#32) reducesTo_S50000x512_S50000_d1 h_S_))
    (broadcastInDim S50000x1 ![] bcast_S_S50000x1 (constant S_ .f32 0x44000000#32))

/-- 512 - ddof at ddof = 0, as the float scalar the variance divides by. -/
def dof : (⟨S_, .f32⟩ : BufTy).Contents (Elt F) :=
  subf (constant S_ .f32 0x44000000#32) (sitofp .f32 (constantI S_ 32 0#32))

/-- The rows' variances, as a [50000, 1] column: the squared deviations summed, divided by the degrees of freedom,
    selected against NaN on the degrees of freedom being positive. -/
def varR (o : (⟨S50000x512, .f32⟩ : BufTy).Contents (Elt F)) : (⟨S50000x1, .f32⟩ : BufTy).Contents (Elt F) :=
  (fun p a b => select (broadcastInDim S50000x1 ![] bcast_S_S50000x1 p) a b)
    (cmpf .ogt (dof (F := F)) (constant S_ .f32 0x00000000#32))
    (Host.divf
      (broadcastInDim S50000x1 ![0] bcast_S50000_S50000x1_0
        (Host.reduceAdd
          (mulf (subf o (broadcastInDim S50000x512 ![0, 1] bcast_S50000x1_S50000x512_0_1 (meanR o)))
            (subf o (broadcastInDim S50000x512 ![0, 1] bcast_S50000x1_S50000x512_0_1 (meanR o))))
          (constant S_ .f32 0x00000000#32) reducesTo_S50000x512_S50000_d1 h_S_))
      (broadcastInDim S50000x1 ![] bcast_S_S50000x1 (dof (F := F))))
    (broadcastInDim S50000x1 ![] bcast_S_S50000x1 (id (constant S_ .f32 0x7FC00000#32)))

/-- Normalise, scale, shift, clip. -/
def normR (o : (⟨S50000x512, .f32⟩ : BufTy).Contents (Elt F)) (γ β : (⟨S512, .f32⟩ : BufTy).Contents (Elt F)) :
    (⟨S50000x512, .f32⟩ : BufTy).Contents (Elt F) :=
  maximumf
    (addf (mulf (mulf (subf o (broadcastInDim S50000x512 ![0, 1] bcast_S50000x1_S50000x512_0_1 (meanR o)))
        (broadcastInDim S50000x512 ![0, 1] bcast_S50000x1_S50000x512_0_1
          (Host.rsqrt (addf (varR o) (broadcastInDim S50000x1 ![] bcast_S_S50000x1 (constant S_ .f32 0x3727C5AC#32))))))
      (rows γ)) (rows β))
    (broadcastInDim S50000x512 ![] bcast_S_S50000x512 (constant S_ .f32 0x00000000#32))

/-- Everything after the three products and the aggregation. -/
def tail (comb : (⟨S50000x32, .f32⟩ : BufTy).Contents (Elt F)) (agg : (⟨S50000x256, .f32⟩ : BufTy).Contents (Elt F))
    (xr : (⟨S50000x512, .f32⟩ : BufTy).Contents (Elt F)) (cb br γ β : (⟨S512, .f32⟩ : BufTy).Contents (Elt F)) :
    (⟨S50000x512, .f32⟩ : BufTy).Contents (Elt F) :=
  normR (preR comb agg xr cb br) γ β

/-- The three products as the reference spells them. -/
def dotB (x : (⟨S50000x512, .f32⟩ : BufTy).Contents (Elt F)) (w : (⟨S512x256, .f32⟩ : BufTy).Contents (Elt F)) :
    (⟨S50000x256, .f32⟩ : BufTy).Contents (Elt F) :=
  Host.dotGeneral dot_S50000x512_S512x256_S50000x256_1_0_0_1_n_n none x w

def dotC (x : (⟨S50000x512, .f32⟩ : BufTy).Contents (Elt F)) (w : (⟨S512x32, .f32⟩ : BufTy).Contents (Elt F))
    (b : (⟨S32, .f32⟩ : BufTy).Contents (Elt F)) : (⟨S50000x32, .f32⟩ : BufTy).Contents (Elt F) :=
  addf (Host.dotGeneral dot_S50000x512_S512x32_S50000x32_1_0_0_1_n_n none x w)
    (broadcastInDim S50000x32 ![0, 1] bcast_S1x32_S50000x32_0_1 (broadcastInDim S1x32 ![1] bcast_S32_S1x32_1 b))

def dotR (x : (⟨S50000x512, .f32⟩ : BufTy).Contents (Elt F)) (w : (⟨S512x512, .f32⟩ : BufTy).Contents (Elt F)) :
    (⟨S50000x512, .f32⟩ : BufTy).Contents (Elt F) :=
  Host.dotGeneral dot_S50000x512_S512x512_S50000x512_1_0_0_1_n_n none x w

/-- The reference's result as one term of its ten arguments. -/
def result (x : (⟨S50000x512, .f32⟩ : BufTy).Contents (Elt F)) (ei : (⟨S2x800000, .i32⟩ : BufTy).Contents (Elt F))
    (wb : (⟨S512x256, .f32⟩ : BufTy).Contents (Elt F)) (wc : (⟨S512x32, .f32⟩ : BufTy).Contents (Elt F))
    (bc : (⟨S32, .f32⟩ : BufTy).Contents (Elt F)) (cb : (⟨S512, .f32⟩ : BufTy).Contents (Elt F))
    (wr : (⟨S512x512, .f32⟩ : BufTy).Contents (Elt F)) (br γ β : (⟨S512, .f32⟩ : BufTy).Contents (Elt F)) :
    (⟨S50000x512, .f32⟩ : BufTy).Contents (Elt F) :=
  tail (dotC x wc bc) (aggR (dotB x wb) ei) (dotR x wr) cb br γ β

end Cert.ReferenceIdeal.Term

end
-- ==== Proof.Between.lean ====
/-
  The host operations between the kernel program's two regions: what region 1 is entered with.
-/
import proofs.«131571_j76828374991621_1_alg».proof.Proof.Gen.KernelIdeal.Frame
import proofs.«131571_j76828374991621_1_alg».proof.Proof.RefTerm
import proofs.«131571_j76828374991621_1_alg».proof.Proof.Gen.ReferenceIdeal
import Idealize.ShloMosaic.Lib.StableHlo.Run
import Idealize.ShloMosaic.Lib.ValueIdx
import Idealize.ShloMosaic.Lib.ValueLayout

set_option maxRecDepth 16384

noncomputable section

namespace Cert.Between

open Cert.ReferenceIdeal Cert.ReferenceIdeal.Term Idealize.ShloMosaic Idealize.SL.Sem
open Cert.ReferenceIdeal.Facts₀ Cert.ReferenceIdeal.Facts

variable {F : FTy → Type} [FloatOps F] [Cert.ReferenceIdeal.Facts]

/-- The aggregation as a function of its four ingredients: the rows to gather, the edges' sources and targets, and the
    per-node factor. An edge's weight is the factor at its source times the factor at its target; the aggregate at a
    node is the sum, over the edges into it, of the weight times the source's row. -/
private def aggOf (bases : (⟨S50000x256, .f32⟩ : BufTy).Contents (Elt F)) (e0 e1 : (⟨S850000, .i32⟩ : BufTy).Contents (Elt F))
    (dv : (⟨S50000, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 e1)
    (mulf (Host.gather gather_S50000x256_S850000x1_S850000x256_1_0_n_n_0_1_1256 bases (wrapCol e0))
      (broadcastInDim S850000x256 ![0, 1] bcast_S850000x1_S850000x256_0_1
        (broadcastInDim S850000x1 ![0] bcast_S850000_S850000x1_0
          (mulf (Host.gather gather_S50000_S850000x1_S850000_n_0_n_n_0_1_1 dv (wrapCol e0))
            (Host.gather gather_S50000_S850000x1_S850000_n_0_n_n_0_1_1 dv (wrapCol e1))))))

/-- The reference's aggregation is that function of its own endpoints and its own factor. -/
private theorem aggR_eq (bases : (⟨S50000x256, .f32⟩ : BufTy).Contents (Elt F)) (ei : (⟨S2x800000, .i32⟩ : BufTy).Contents (Elt F)) :
    aggR bases ei = aggOf bases (ends0 ei) (ends1 ei) (dinv ei) := rfl

end Cert.Between

namespace Cert.KernelIdeal.Mid

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- A reference that no operation of a stretch writes holds after the stretch what it held before. -/
private theorem after_kept (ops : List (HloOp τ sig (Elt Ideal))) (V : Valuation τ sig (Elt Ideal)) (r : Ref sig .tc)
    (h : ops.Forall fun op => Proc.devRef (τ := τ) .tc r ∉ op.writes) :
    StableHlo.after ops V (Proc.devRef .tc r) = V (Proc.devRef .tc r) :=
  StableHlo.after_of_forall_not_mem ops V (List.forall_iff_forall_mem.mp h)

/-- Decides "no operation of this literal stretch writes this literal reference": each operation writes its one result
    reference, and that one is another reference. -/
local macro "unwritten" : tactic => `(tactic|
  (simp only [hostOps0, hostOps1, hostOps1_1, hostOps1_2, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- A reference none of the three stretches writes reaches region 1 as region 0 left it. -/
private theorem kept_of (c : Dev nD) (r : Ref sig .tc)
    (h1 : (hostOps1 : List (HloOp τ sig (Elt Ideal))).Forall fun op => Proc.devRef (τ := τ) .tc r ∉ op.writes)
    (h2 : (hostOps1_1 : List (HloOp τ sig (Elt Ideal))).Forall fun op => Proc.devRef (τ := τ) .tc r ∉ op.writes)
    (h3 : (hostOps1_2 : List (HloOp τ sig (Elt Ideal))).Forall fun op => Proc.devRef (τ := τ) .tc r ∉ op.writes) :
    W5 m ρ c (Proc.devRef .tc r) = W2 m ρ c (Proc.devRef .tc r) :=
  calc W5 m ρ c (Proc.devRef .tc r)
    _ = W4 m ρ c (Proc.devRef .tc r) := after_kept _ _ r h3
    _ = W3 m ρ c (Proc.devRef .tc r) := after_kept _ _ r h2
    _ = W2 m ρ c (Proc.devRef .tc r) := after_kept _ _ r h1

/-- Region 0's second output (the combination weights) reaches region 1 untouched. -/
theorem comb_kept (c : Dev nD) : V5 m ρ c main_v5_1 = V2 m ρ c main_v5_1 :=
  kept_of m ρ c main_v5_1 (by unwritten) (by unwritten) (by unwritten)

/-- Region 0's third output (the residual branch) reaches region 1 untouched. -/
theorem res_kept (c : Dev nD) : V5 m ρ c main_v5_2 = V2 m ρ c main_v5_2 :=
  kept_of m ρ c main_v5_2 (by unwritten) (by unwritten) (by unwritten)

/-- An argument that region 0 does not hold as an array and that no host operation up to the second stretch writes holds,
    before the last stretch, what the launch gave it. -/
private theorem arg_W4 (c : Dev nD) (r : Ref sig .tc) (hr : ∀ w, Pipeline.arrRef spec0 w ≠ r)
    (h0 : (hostOps0 : List (HloOp τ sig (Elt Ideal))).Forall fun op => Proc.devRef (τ := τ) .tc r ∉ op.writes)
    (h1 : (hostOps1 : List (HloOp τ sig (Elt Ideal))).Forall fun op => Proc.devRef (τ := τ) .tc r ∉ op.writes)
    (h2 : (hostOps1_1 : List (HloOp τ sig (Elt Ideal))).Forall fun op => Proc.devRef (τ := τ) .tc r ∉ op.writes) :
    W4 m ρ c (Proc.devRef .tc r) = m ((c : Thread nD τ).loc r) :=
  calc W4 m ρ c (Proc.devRef .tc r)
    _ = W3 m ρ c (Proc.devRef .tc r) := after_kept _ _ r h2
    _ = W2 m ρ c (Proc.devRef .tc r) := after_kept _ _ r h1
    _ = W1 m ρ c (Proc.devRef .tc r) := W2_of_ne m ρ c r hr
    _ = W0 m ρ c (Proc.devRef .tc r) := after_kept _ _ r h0
    _ = m ((c : Thread nD τ).loc r) := rfl

section Stretch1

variable (W : Valuation τ sig (Elt Ideal))

/-- After the first stretch the source row of the edge list, self-loops appended, is the reference's `ends0`. -/
private theorem s1_v9 : StableHlo.after hostOps1 W (Proc.devRef .tc main_v9)
    = Cert.ReferenceIdeal.Term.ends0 (F := Ideal) (W (Proc.devRef .tc main_arg1)) := by
  after_results
  unfold Cert.ReferenceIdeal.Term.ends0
  rfl

/-- Likewise the target row is the reference's `ends1`. -/
private theorem s1_v12 : StableHlo.after hostOps1 W (Proc.devRef .tc main_v12)
    = Cert.ReferenceIdeal.Term.ends1 (F := Ideal) (W (Proc.devRef .tc main_arg1)) := by
  after_results
  unfold Cert.ReferenceIdeal.Term.ends1
  rfl

/-- Where the in-degree is positive. -/
private theorem s1_v18 : StableHlo.after hostOps1 W (Proc.devRef .tc main_v18)
    = cmpf .ogt (Cert.ReferenceIdeal.Term.degree (F := Ideal) (W (Proc.devRef .tc main_arg1)))
        (broadcastInDim Cert.ReferenceIdeal.S50000 ![] Cert.ReferenceIdeal.Gen.bcast_S_S50000
          (constant (F := Ideal) Cert.ReferenceIdeal.S_ .f32 0x00000000#32)) := by
  after_results
  unfold Cert.ReferenceIdeal.Term.degree Cert.ReferenceIdeal.Term.ends1
  rfl

/-- The inverse square root of the in-degree raised to at least 1. -/
private theorem s1_v21 : StableHlo.after hostOps1 W (Proc.devRef .tc main_v21)
    = Host.rsqrt (maximumf (Cert.ReferenceIdeal.Term.degree (F := Ideal) (W (Proc.devRef .tc main_arg1)))
        (broadcastInDim Cert.ReferenceIdeal.S50000 ![] Cert.ReferenceIdeal.Gen.bcast_S_S50000
          (constant (F := Ideal) Cert.ReferenceIdeal.S_ .f32 0x3F800000#32))) := by
  after_results
  unfold Cert.ReferenceIdeal.Term.degree Cert.ReferenceIdeal.Term.ends1
  rfl

/-- The zero the isolated nodes take. -/
private theorem s1_cst3 : StableHlo.after hostOps1 W (Proc.devRef .tc main_cst_3)
    = constant (F := Ideal) Cert.ReferenceIdeal.S_ .f32 0x00000000#32 := by
  after_results

end Stretch1

section Stretch2

variable (X : Valuation τ sig (Elt Ideal))

/-- The second stretch selects, per node, the inverse square root where the in-degree is positive and the zero elsewhere. -/
private theorem s2_v22 : StableHlo.after hostOps1_1 X (Proc.devRef .tc main_v22)
    = select (X (Proc.devRef .tc main_v18)) (X (Proc.devRef .tc main_v21))
        (broadcastInDim Cert.ReferenceIdeal.S50000 ![] Cert.ReferenceIdeal.Gen.bcast_S_S50000
          (id (X (Proc.devRef .tc main_cst_3)))) := by
  after_results
  rfl

end Stretch2

section Stretch3

variable (Y : Valuation τ sig (Elt Ideal))

/-- The third stretch wraps the endpoints, gathers the factor at both ends of every edge and the rows at its source,
    and scatters the weighted rows onto the targets. -/
private theorem s3_v50 : StableHlo.after hostOps1_2 Y (Proc.devRef .tc main_v50)
    = Cert.Between.aggOf (F := Ideal) (Y (Proc.devRef .tc main_v5_0)) (Y (Proc.devRef .tc main_v9))
        (Y (Proc.devRef .tc main_v12)) (Y (Proc.devRef .tc main_v22)) := by
  after_results_simp
  unfold Cert.Between.aggOf Cert.ReferenceIdeal.Term.wrapCol
  rfl

end Stretch3

/-- The edge list is no array of region 0 and no operation before region 0 writes it: at region 0's exit it is as launched. -/
private theorem edges_W2 (c : Dev nD) : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := after_kept _ _ main_arg1 (by unwritten)
    _ = m ((c.tc : Thread nD τ).loc main_arg1) := rfl

/-- The aggregate region 1 reads is the reference's aggregation chain applied to region 0's first output and the edge list. -/
theorem agg_eq (c : Dev nD) :
    V5 m ρ c main_v50 = Cert.ReferenceIdeal.Term.aggR (F := Ideal) (V2 m ρ c main_v5_0) (m ((c.tc : Thread nD τ).loc main_arg1)) := by
  rw [← edges_W2 m ρ c, Cert.Between.aggR_eq]
  show StableHlo.after hostOps1_2 (StableHlo.after hostOps1_1 (StableHlo.after hostOps1 (W2 m ρ c))) (Proc.devRef .tc main_v50)
     = Cert.Between.aggOf (F := Ideal) (W2 m ρ c (Proc.devRef .tc main_v5_0))
        (Cert.ReferenceIdeal.Term.ends0 (W2 m ρ c (Proc.devRef .tc main_arg1)))
        (Cert.ReferenceIdeal.Term.ends1 (W2 m ρ c (Proc.devRef .tc main_arg1)))
        (Cert.ReferenceIdeal.Term.dinv (W2 m ρ c (Proc.devRef .tc main_arg1)))
  generalize W2 m ρ c = W
  -- the last stretch, then each of its four ingredients walked back through the first two
  rw [s3_v50,
    after_kept hostOps1_1 _ main_v5_0 (by unwritten), after_kept hostOps1 _ main_v5_0 (by unwritten),
    after_kept hostOps1_1 _ main_v9 (by unwritten), s1_v9,
    after_kept hostOps1_1 _ main_v12 (by unwritten), s1_v12,
    s2_v22, s1_v18, s1_v21, s1_cst3]
  unfold Cert.ReferenceIdeal.Term.dinv
  rfl

/-- The output bias as region 1 reads it: the [512] argument with a unit axis added in front. -/
theorem cb_eq (c : Dev nD) (j : Fin 512) : V5 m ρ c main_v51 (ix2 0 j) = m ((c.tc : Thread nD τ).loc main_arg5) (ix1 j) := by
  have e : W5 m ρ c (Proc.devRef .tc main_v51)
      = (fun i => shapeCast S1x512 (W4 m ρ c (Proc.devRef .tc main_arg5)) shapeCasts_S512_S1x512 i) := by
    show StableHlo.after hostOps1_2 (W4 m ρ c) (Proc.devRef .tc main_v51) = _
    generalize W4 m ρ c = W
    after_results_simp
    rfl
  have a : W4 m ρ c (Proc.devRef .tc main_arg5) = m ((c : Thread nD τ).loc main_arg5) :=
    arg_W4 m ρ c main_arg5 (by decide) (by unwritten) (by unwritten) (by unwritten)
  refine (congrFun e (ix2 0 j)).trans ?_
  rw [a]
  exact shapeCast_a_1a_apply _ _ 0 j

/-- The scale as region 1 reads it: the [512] argument with a unit axis added in front. -/
theorem gamma_eq (c : Dev nD) (j : Fin 512) : V5 m ρ c main_v52 (ix2 0 j) = m ((c.tc : Thread nD τ).loc main_arg8) (ix1 j) := by
  have e : W5 m ρ c (Proc.devRef .tc main_v52)
      = (fun i => shapeCast S1x512 (W4 m ρ c (Proc.devRef .tc main_arg8)) shapeCasts_S512_S1x512 i) := by
    show StableHlo.after hostOps1_2 (W4 m ρ c) (Proc.devRef .tc main_v52) = _
    generalize W4 m ρ c = W
    after_results_simp
    rfl
  have a : W4 m ρ c (Proc.devRef .tc main_arg8) = m ((c : Thread nD τ).loc main_arg8) :=
    arg_W4 m ρ c main_arg8 (by decide) (by unwritten) (by unwritten) (by unwritten)
  refine (congrFun e (ix2 0 j)).trans ?_
  rw [a]
  exact shapeCast_a_1a_apply _ _ 0 j

/-- The shift as region 1 reads it: the [512] argument with a unit axis added in front. -/
theorem beta_eq (c : Dev nD) (j : Fin 512) : V5 m ρ c main_v53 (ix2 0 j) = m ((c.tc : Thread nD τ).loc main_arg9) (ix1 j) := by
  have e : W5 m ρ c (Proc.devRef .tc main_v53)
      = (fun i => shapeCast S1x512 (W4 m ρ c (Proc.devRef .tc main_arg9)) shapeCasts_S512_S1x512 i) := by
    show StableHlo.after hostOps1_2 (W4 m ρ c) (Proc.devRef .tc main_v53) = _
    generalize W4 m ρ c = W
    after_results_simp
    rfl
  have a : W4 m ρ c (Proc.devRef .tc main_arg9) = m ((c : Thread nD τ).loc main_arg9) :=
    arg_W4 m ρ c main_arg9 (by decide) (by unwritten) (by unwritten) (by unwritten)
  refine (congrFun e (ix2 0 j)).trans ?_
  rw [a]
  exact shapeCast_a_1a_apply _ _ 0 j

end Cert.KernelIdeal.Mid

end
-- ==== Proof.KernelValue.lean ====
/-
  The kernel program's result array, as the function of Proof/Spec.lean of its argument arrays.

  The result buffer is region 1's output array; after the run it holds what region 1's write-backs leave there,
  which is the row function of the arrays region 1 is entered with: region 0's second and third outputs
  (x · W_comb + b_comb and x · W_res + b_res, untouched by the host operations in between), the aggregation chain
  applied to region 0's first output (x · W_bases) and the edge list, and the three [512] vectors reshaped to a row.
-/
import proofs.«131571_j76828374991621_1_alg».proof.Proof.NamedRun
import proofs.«131571_j76828374991621_1_alg».proof.Proof.Projections
import proofs.«131571_j76828374991621_1_alg».proof.Proof.Combine
import proofs.«131571_j76828374991621_1_alg».proof.Proof.Between

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The specification at the kernel program's argument arrays. -/
def out (c : Dev nD) : Buf (Elt Ideal) ((c.tc : Thread nD τ).loc main_v54) :=
  Cert.Spec.rowNorm (R := 50000) (Cert.Spec.projC (m ((c.tc : Thread nD τ).loc main_arg0)) (m ((c.tc : Thread nD τ).loc main_arg3)) (m ((c.tc : Thread nD τ).loc main_arg4)))
    (Cert.ReferenceIdeal.Term.aggR (F := Ideal) (Cert.Spec.projB (m ((c.tc : Thread nD τ).loc main_arg0)) (m ((c.tc : Thread nD τ).loc main_arg2))) (m ((c.tc : Thread nD τ).loc main_arg1)))
    (Cert.Spec.projR (m ((c.tc : Thread nD τ).loc main_arg0)) (m ((c.tc : Thread nD τ).loc main_arg6)) (m ((c.tc : Thread nD τ).loc main_arg7)))
    (fun j => (m ((c.tc : Thread nD τ).loc main_arg5)) (ix1 j)) (fun j => (m ((c.tc : Thread nD τ).loc main_arg8)) (ix1 j)) (fun j => (m ((c.tc : Thread nD τ).loc main_arg9)) (ix1 j))

/-- What region 1 is entered with, array by array. -/
theorem comb_in (c : Dev nD) : V5 m ρ c main_v5_1 = Cert.Spec.projC (m ((c.tc : Thread nD τ).loc main_arg0)) (m ((c.tc : Thread nD τ).loc main_arg3)) (m ((c.tc : Thread nD τ).loc main_arg4)) :=
  (Mid.comb_kept m ρ c).trans ((W2_arr m ρ c 7).trans (Proj.comb_eq m ρ c))

theorem res_in (c : Dev nD) : V5 m ρ c main_v5_2 = Cert.Spec.projR (m ((c.tc : Thread nD τ).loc main_arg0)) (m ((c.tc : Thread nD τ).loc main_arg6)) (m ((c.tc : Thread nD τ).loc main_arg7)) :=
  (Mid.res_kept m ρ c).trans ((W2_arr m ρ c 8).trans (Proj.res_eq m ρ c))

theorem bases_mid (c : Dev nD) : V2 m ρ c main_v5_0 = Cert.Spec.projB (m ((c.tc : Thread nD τ).loc main_arg0)) (m ((c.tc : Thread nD τ).loc main_arg2)) :=
  (W2_arr m ρ c 6).trans (Proj.bases_eq m ρ c)

theorem agg_in (c : Dev nD) :
    V5 m ρ c main_v50 = Cert.ReferenceIdeal.Term.aggR (F := Ideal) (Cert.Spec.projB (m ((c.tc : Thread nD τ).loc main_arg0)) (m ((c.tc : Thread nD τ).loc main_arg2))) (m ((c.tc : Thread nD τ).loc main_arg1)) := by
  rw [Mid.agg_eq m ρ c, bases_mid m ρ c]

/-- The result buffer after the run is the specification of the arguments. -/
theorem result_eq (c : Dev nD) : W6 (F := Ideal) m ρ c (Proc.devRef .tc main_v54) = out m c := by
  refine (W6_arr m ρ c 6).trans ?_
  rw [Comb.out_eq (V5 m ρ) c, comb_in m ρ c, res_in m ρ c, agg_in m ρ c,
    show (fun j => V5 m ρ c main_v51 (ix2 0 j)) = (fun j => (m ((c.tc : Thread nD τ).loc main_arg5)) (ix1 j)) from funext (Mid.cb_eq m ρ c),
    show (fun j => V5 m ρ c main_v52 (ix2 0 j)) = (fun j => (m ((c.tc : Thread nD τ).loc main_arg8)) (ix1 j)) from funext (Mid.gamma_eq m ρ c),
    show (fun j => V5 m ρ c main_v53 (ix2 0 j)) = (fun j => (m ((c.tc : Thread nD τ).loc main_arg9)) (ix1 j)) from funext (Mid.beta_eq m ρ c)]
  rfl

end Cert.KernelIdeal.Whole

end
-- ==== Proof.RefRun.lean ====
/-
  The reference program's run: @main is a straight line of host operations (the outlined functions' bodies at
  their call sites), every weakly fair execution of it terminates, and the result buffer ends at the composed
  term of Proof/RefTerm.lean applied to the argument arrays, which end unchanged.
-/
import proofs.«131571_j76828374991621_1_alg».proof.Proof.Gen.ReferenceIdeal
import proofs.«131571_j76828374991621_1_alg».proof.Proof.RefTerm
import Idealize.ShloMosaic.Lib.StableHlo.Run
import Idealize.ShloMosaic.Lib.Pipeline.Frame

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window, in order. The edge list's two rows, each with the 50000 self-loops
    appended (`main_v3` the sources, `main_v6` the targets); the in-degree as ones scattered onto the targets
    (`main_v10`); its inverse square root where positive, else zero — the select is the outlined `_where`, three
    operations into `main_call0`'s buffers: the zero at its own type, its broadcast, the select (`main_v16`); the
    two index columns wrapped by + 50000 where negative and the two gathers of that vector, multiplied into the
    edge weight (`main_v31`); the product with the bases' weights (`main_v32`), its source rows gathered, scaled by
    the edge weight and scattered onto the targets (`main_v45`); the product with the combination weights
    (`main_v46`) and the first broadcast of its bias. -/
abbrev ops_part0 : List (HloOp τ sig (Elt F)) :=
  [ nullary main_v0 (iotaInDim S50000 32 0),
    unary main_arg1 main_v1 (extractStridedSlice S1x800000 ![0, 0] · slices_S2x800000_S1x800000_0_0),
    reshape main_v1 main_v2 rfl shapeCasts_S1x800000_S800000,
    binary main_v2 main_v0 main_v3 (fun a b => concatenate S850000 0 [⟨S800000, a⟩, ⟨S50000, b⟩] concatenates_S800000_S50000_S850000_d0),
    unary main_arg1 main_v4 (extractStridedSlice S1x800000 ![1, 0] · slices_S2x800000_S1x800000_1_0),
    reshape main_v4 main_v5 rfl shapeCasts_S1x800000_S800000,
    binary main_v5 main_v0 main_v6 (fun a b => concatenate S850000 0 [⟨S800000, a⟩, ⟨S50000, b⟩] concatenates_S800000_S50000_S850000_d0),
    nullary main_cst (constant S_ .f32 0x3F800000#32),
    unary main_cst main_v7 (broadcastInDim S850000 ![] bcast_S_S850000),
    nullary main_cst_0 (constant S_ .f32 0x00000000#32),
    unary main_cst_0 main_v8 (broadcastInDim S50000 ![] bcast_S_S50000),
    unary main_v6 main_v9 (broadcastInDim S850000x1 ![0] bcast_S850000_S850000x1_0),
    ternary main_v8 main_v9 main_v7 main_v10 (fun x i u => Host.scatterAdd scatter_S50000_S850000x1_S850000_n_0_0_1 x i u),
    nullary main_cst_1 (constant S_ .f32 0x00000000#32),
    unary main_cst_1 main_v11 (broadcastInDim S50000 ![] bcast_S_S50000),
    binary main_v10 main_v11 main_v12 (cmpf .ogt),
    nullary main_cst_2 (constant S_ .f32 0x3F800000#32),
    unary main_cst_2 main_v13 (broadcastInDim S50000 ![] bcast_S_S50000),
    binary main_v10 main_v13 main_v14 maximumf,
    unary main_v14 main_v15 Host.rsqrt,
    nullary main_cst_3 (constant S_ .f32 0x00000000#32),
    TRef.unary (.of main_cst_3) main_call0.v0 id,
    TRef.unary main_call0.v0 main_call0.v1 (broadcastInDim S50000 ![] bcast_S_S50000),
    TRef.ternary (.of main_v12) (.of main_v15) main_call0.v1 main_call0.v2 select,
    nullary main_c (constantI S_ 32 0#32),
    unary main_c main_v17 (broadcastInDim S850000 ![] bcast_S_S850000),
    binary main_v3 main_v17 main_v18 (cmpi .slt),
    nullary main_c_4 (constantI S_ 32 50000#32),
    unary main_c_4 main_v19 (broadcastInDim S850000 ![] bcast_S_S850000),
    binary main_v3 main_v19 main_v20 addi,
    ternary main_v18 main_v20 main_v3 main_v21 select,
    unary main_v21 main_v22 (broadcastInDim S850000x1 ![0] bcast_S850000_S850000x1_0),
    binary main_v16 main_v22 main_v23 (fun x i => Host.gather gather_S50000_S850000x1_S850000_n_0_n_n_0_1_1 x i),
    nullary main_c_5 (constantI S_ 32 0#32),
    unary main_c_5 main_v24 (broadcastInDim S850000 ![] bcast_S_S850000),
    binary main_v6 main_v24 main_v25 (cmpi .slt),
    nullary main_c_6 (constantI S_ 32 50000#32),
    unary main_c_6 main_v26 (broadcastInDim S850000 ![] bcast_S_S850000),
    binary main_v6 main_v26 main_v27 addi,
    ternary main_v25 main_v27 main_v6 main_v28 select,
    unary main_v28 main_v29 (broadcastInDim S850000x1 ![0] bcast_S850000_S850000x1_0),
    binary main_v16 main_v29 main_v30 (fun x i => Host.gather gather_S50000_S850000x1_S850000_n_0_n_n_0_1_1 x i),
    binary main_v23 main_v30 main_v31 mulf,
    binary main_arg0 main_arg2 main_v32 (fun l r => Host.dotGeneral dot_S50000x512_S512x256_S50000x256_1_0_0_1_n_n none l r),
    nullary main_c_7 (constantI S_ 32 0#32),
    unary main_c_7 main_v33 (broadcastInDim S850000 ![] bcast_S_S850000),
    binary main_v3 main_v33 main_v34 (cmpi .slt),
    nullary main_c_8 (constantI S_ 32 50000#32),
    unary main_c_8 main_v35 (broadcastInDim S850000 ![] bcast_S_S850000),
    binary main_v3 main_v35 main_v36 addi,
    ternary main_v34 main_v36 main_v3 main_v37 select,
    unary main_v37 main_v38 (broadcastInDim S850000x1 ![0] bcast_S850000_S850000x1_0),
    binary main_v32 main_v38 main_v39 (fun x i => Host.gather gather_S50000x256_S850000x1_S850000x256_1_0_n_n_0_1_1256 x i),
    unary main_v31 main_v40 (broadcastInDim S850000x1 ![0] bcast_S850000_S850000x1_0),
    unary main_v40 main_v41 (broadcastInDim S850000x256 ![0, 1] bcast_S850000x1_S850000x256_0_1),
    binary main_v39 main_v41 main_v42 mulf,
    nullary main_cst_9 (constant S_ .f32 0x00000000#32),
    unary main_cst_9 main_v43 (broadcastInDim S50000x256 ![] bcast_S_S50000x256),
    unary main_v6 main_v44 (broadcastInDim S850000x1 ![0] bcast_S850000_S850000x1_0),
    ternary main_v43 main_v44 main_v42 main_v45 (fun x i u => Host.scatterAdd scatter_S50000x256_S850000x1_S850000x256_1_0_0_1 x i u),
    binary main_arg0 main_arg3 main_v46 (fun l r => Host.dotGeneral dot_S50000x512_S512x32_S50000x32_1_0_0_1_n_n none l r),
    unary main_arg4 main_v47 (broadcastInDim S1x32 ![1] bcast_S32_S1x32_1) ]

/-- The operations of @main's second window, in order. The combination (`main_v49`) and the aggregate reshaped and
    multiplied head by head (`main_v52`), reshaped back, plus the output bias, the residual product and its bias
    (`main_v61`); the rows' means (`main_v65`); the outlined `_var`, twenty operations into `main_call1`'s buffers
    (the means again, the squared deviations summed, the degrees of freedom 512 - ddof as a float scalar, the
    quotient, the comparison of the degrees of freedom with zero, the NaN constant) and its own outlined
    `_where_0`, three into `main_call1.call0`'s (the constant at its own type, its broadcast, the select on the
    broadcast predicate: `main_v66`); the deviation times the inverse square root of variance plus ε, the scale,
    the shift (`main_v79`); the outlined `relu`, three into `main_call2`'s (zero, its broadcast, the maximum:
    `main_v80`). -/
abbrev ops_part1 : List (HloOp τ sig (Elt F)) :=
  [ unary main_v47 main_v48 (broadcastInDim S50000x32 ![0, 1] bcast_S1x32_S50000x32_0_1),
    binary main_v46 main_v48 main_v49 addf,
    reshape main_v49 main_v50 rfl shapeCasts_S50000x32_S50000x8x4,
    reshape main_v45 main_v51 rfl shapeCasts_S50000x256_S50000x4x64,
    binary main_v50 main_v51 main_v52 (fun l r => Host.dotGeneral dot_S50000x8x4_S50000x4x64_S50000x8x64_2_1_1_2_0_0 none l r),
    reshape main_v52 main_v53 rfl shapeCasts_S50000x8x64_S50000x512,
    unary main_arg5 main_v54 (broadcastInDim S1x512 ![1] bcast_S512_S1x512_1),
    unary main_v54 main_v55 (broadcastInDim S50000x512 ![0, 1] bcast_S1x512_S50000x512_0_1),
    binary main_v53 main_v55 main_v56 addf,
    binary main_arg0 main_arg6 main_v57 (fun l r => Host.dotGeneral dot_S50000x512_S512x512_S50000x512_1_0_0_1_n_n none l r),
    binary main_v56 main_v57 main_v58 addf,
    unary main_arg7 main_v59 (broadcastInDim S1x512 ![1] bcast_S512_S1x512_1),
    unary main_v59 main_v60 (broadcastInDim S50000x512 ![0, 1] bcast_S1x512_S50000x512_0_1),
    binary main_v58 main_v60 main_v61 addf,
    nullary main_cst_10 (constant S_ .f32 0x00000000#32),
    binary main_v61 main_cst_10 main_v62 (fun x v => Host.reduceAdd x v reducesTo_S50000x512_S50000_d1 h_S_),
    unary main_v62 main_v63 (broadcastInDim S50000x1 ![0] bcast_S50000_S50000x1_0),
    nullary main_cst_11 (constant S_ .f32 0x44000000#32),
    unary main_cst_11 main_v64 (broadcastInDim S50000x1 ![] bcast_S_S50000x1),
    binary main_v63 main_v64 main_v65 Host.divf,
    nullary main_c_12 (constantI S_ 32 0#32),
    TRef.nullary main_call1.cst (constant S_ .f32 0x00000000#32),
    TRef.binary (.of main_v61) main_call1.cst main_call1.v0 (fun x v => Host.reduceAdd x v reducesTo_S50000x512_S50000_d1 h_S_),
    TRef.unary main_call1.v0 main_call1.v1 (broadcastInDim S50000x1 ![0] bcast_S50000_S50000x1_0),
    TRef.nullary main_call1.cst_0 (constant S_ .f32 0x44000000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x512 ![0, 1] bcast_S50000x1_S50000x512_0_1),
    TRef.binary (.of main_v61) main_call1.v4 main_call1.v5 subf,
    TRef.binary main_call1.v5 main_call1.v5 main_call1.v6 mulf,
    TRef.unary (.of main_c_12) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x512_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b),
    unary main_v65 main_v67 (broadcastInDim S50000x512 ![0, 1] bcast_S50000x1_S50000x512_0_1),
    binary main_v61 main_v67 main_v68 subf,
    nullary main_cst_13 (constant S_ .f32 0x3727C5AC#32),
    unary main_cst_13 main_v69 (broadcastInDim S50000x1 ![] bcast_S_S50000x1),
    binary main_v66 main_v69 main_v70 addf,
    unary main_v70 main_v71 Host.rsqrt,
    unary main_v71 main_v72 (broadcastInDim S50000x512 ![0, 1] bcast_S50000x1_S50000x512_0_1),
    binary main_v68 main_v72 main_v73 mulf,
    unary main_arg8 main_v74 (broadcastInDim S1x512 ![1] bcast_S512_S1x512_1),
    unary main_v74 main_v75 (broadcastInDim S50000x512 ![0, 1] bcast_S1x512_S50000x512_0_1),
    binary main_v73 main_v75 main_v76 mulf,
    unary main_arg9 main_v77 (broadcastInDim S1x512 ![1] bcast_S512_S1x512_1),
    unary main_v77 main_v78 (broadcastInDim S50000x512 ![0, 1] bcast_S1x512_S50000x512_0_1),
    binary main_v76 main_v78 main_v79 addf,
    TRef.nullary main_call2.cst (constant S_ .f32 0x00000000#32),
    TRef.unary main_call2.cst main_call2.v0 (broadcastInDim S50000x512 ![] bcast_S_S50000x512),
    TRef.binary (.of main_v79) main_call2.v0 main_call2.v1 maximumf ]

/-- @main's 123 operations, in order. -/
abbrev ops : List (HloOp τ sig (Elt F)) := ops_part0 ++ ops_part1

set_option maxRecDepth 8192 in
/-- The first window is that straight line: `_where`'s body unfolded at its call and its record at its fields. -/
theorem main_part0_eq (c : Dev nD) : main_part0 (F := F) c = seq ops_part0 := rfl

set_option maxRecDepth 8192 in
/-- The second window likewise: `_var`'s body (and `_where_0`'s inside it) and `relu`'s at their calls. -/
theorem main_part1_eq (c : Dev nD) : main_part1 (F := F) c = seq ops_part1 := rfl

set_option maxRecDepth 8192 in
/-- @main is the two windows one after the other: the line of the concatenated list. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the first window touches TensorCore buffers only. -/
theorem ops_part0_sub : (ops_part0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    binary_bufs_sub .., unary_bufs_sub ..⟩

set_option maxRecDepth 8192 in
/-- Every operation of the second window touches TensorCore buffers only. -/
theorem ops_part1_sub : (ops_part1 : List (HloOp τ sig (Elt F))).Forall fun op => op.bufs ⊆ tcRefs τ sig :=
  ⟨unary_bufs_sub .., binary_bufs_sub .., reshape_bufs_sub .., reshape_bufs_sub .., binary_bufs_sub .., reshape_bufs_sub ..,
    unary_bufs_sub .., unary_bufs_sub .., binary_bufs_sub .., binary_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

set_option maxRecDepth 8192 in
set_option maxHeartbeats 4000000 in
/-- The fold at the result buffer is the composed term: each operation's result at its own buffer is its function
    of the contents of its operands' buffers, every other buffer keeps what it had; the typed references' casts
    are the identity at these literal references, a reshape's result is the plain shape cast, and the stages of
    Proof/RefTerm.lean unfold to the same operations in the same order. -/
theorem result_eq (V : Valuation τ sig (Elt F)) :
    after ops V (Proc.devRef .tc main_v80)
      = Cert.ReferenceIdeal.Term.result (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) := by
  simp only [ops, StableHlo.after_append, ops_part0, ops_part1]
  after_results_simp
  rfl

/-! No operation writes an argument's buffer: the fold leaves each of the ten where it was. -/

set_option maxRecDepth 8192 in
theorem arg0_eq (V : Valuation τ sig (Elt F)) :
    after ops V (Proc.devRef .tc main_arg0) = V (Proc.devRef .tc main_arg0) := by
  simp only [ops, StableHlo.after_append, ops_part0, ops_part1]
  after_results_simp

set_option maxRecDepth 8192 in
theorem arg1_eq (V : Valuation τ sig (Elt F)) :
    after ops V (Proc.devRef .tc main_arg1) = V (Proc.devRef .tc main_arg1) := by
  simp only [ops, StableHlo.after_append, ops_part0, ops_part1]
  after_results_simp

set_option maxRecDepth 8192 in
theorem arg2_eq (V : Valuation τ sig (Elt F)) :
    after ops V (Proc.devRef .tc main_arg2) = V (Proc.devRef .tc main_arg2) := by
  simp only [ops, StableHlo.after_append, ops_part0, ops_part1]
  after_results_simp

set_option maxRecDepth 8192 in
theorem arg3_eq (V : Valuation τ sig (Elt F)) :
    after ops V (Proc.devRef .tc main_arg3) = V (Proc.devRef .tc main_arg3) := by
  simp only [ops, StableHlo.after_append, ops_part0, ops_part1]
  after_results_simp

set_option maxRecDepth 8192 in
theorem arg4_eq (V : Valuation τ sig (Elt F)) :
    after ops V (Proc.devRef .tc main_arg4) = V (Proc.devRef .tc main_arg4) := by
  simp only [ops, StableHlo.after_append, ops_part0, ops_part1]
  after_results_simp

set_option maxRecDepth 8192 in
theorem arg5_eq (V : Valuation τ sig (Elt F)) :
    after ops V (Proc.devRef .tc main_arg5) = V (Proc.devRef .tc main_arg5) := by
  simp only [ops, StableHlo.after_append, ops_part0, ops_part1]
  after_results_simp

set_option maxRecDepth 8192 in
theorem arg6_eq (V : Valuation τ sig (Elt F)) :
    after ops V (Proc.devRef .tc main_arg6) = V (Proc.devRef .tc main_arg6) := by
  simp only [ops, StableHlo.after_append, ops_part0, ops_part1]
  after_results_simp

set_option maxRecDepth 8192 in
theorem arg7_eq (V : Valuation τ sig (Elt F)) :
    after ops V (Proc.devRef .tc main_arg7) = V (Proc.devRef .tc main_arg7) := by
  simp only [ops, StableHlo.after_append, ops_part0, ops_part1]
  after_results_simp

set_option maxRecDepth 8192 in
theorem arg8_eq (V : Valuation τ sig (Elt F)) :
    after ops V (Proc.devRef .tc main_arg8) = V (Proc.devRef .tc main_arg8) := by
  simp only [ops, StableHlo.after_append, ops_part0, ops_part1]
  after_results_simp

set_option maxRecDepth 8192 in
theorem arg9_eq (V : Valuation τ sig (Elt F)) :
    after ops V (Proc.devRef .tc main_arg9) = V (Proc.devRef .tc main_arg9) := by
  simp only [ops, StableHlo.after_append, ops_part0, ops_part1]
  after_results_simp

/-- On every device, for any float values, from any memory with zero counters: every weakly fair execution of
    @main terminates with the result buffer at the composed term of the ten arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
        = Cert.ReferenceIdeal.Term.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v80).trans (result_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c)),
      (h c main_arg6).trans (arg6_eq (launchContents m c)), (h c main_arg7).trans (arg7_eq (launchContents m c)),
      (h c main_arg8).trans (arg8_eq (launchContents m c)), (h c main_arg9).trans (arg9_eq (launchContents m c))⟩)
    (run_seq scopedRefs_eq scopedSems_eq defs main (fun _ => ops) main_eq (fun _ => ops_sub) m ρ)

end Cert.ReferenceIdeal.Run

end
-- ==== Proof.RefDots.lean ====
/-
  The reference's three products, read at an index: each is the plain sum over the contracted axis of the left
  operand's row times the right operand's column; the bias of the second is its [32] vector at the column.
-/
import proofs.«131571_j76828374991621_1_alg».proof.Proof.Gen.ReferenceIdeal
import proofs.«131571_j76828374991621_1_alg».proof.Proof.RefTerm
import proofs.«131571_j76828374991621_1_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.ReferenceIdeal.DotValue

open Cert.ReferenceIdeal Cert.ReferenceIdeal.Gen Cert.ReferenceIdeal.Term
open Idealize.ShloMosaic Idealize.ShloMosaic.TcCoe Idealize.SL.Sem Idealize.ShloMosaic.ValueIdx

/-- Where the product dot_S50000x512_S512x256_S50000x256_1_0_0_1_n_n reads its operands: the left one at (row of the result, contraction position), the right
    one at (contraction position, column of the result). -/
theorem lhsB_0 (j : S50000x256.Idx) (k : dot_S50000x512_S512x256_S50000x256_1_0_0_1_n_n.contr.Idx) : (dot_S50000x512_S512x256_S50000x256_1_0_0_1_n_n.lhsIdx j k 0).val = (j 0).val := rfl
theorem lhsB_1 (j : S50000x256.Idx) (k : dot_S50000x512_S512x256_S50000x256_1_0_0_1_n_n.contr.Idx) : (dot_S50000x512_S512x256_S50000x256_1_0_0_1_n_n.lhsIdx j k 1).val = (k ⟨0, by decide⟩).val :=
  DotDims.lhsIdx_val_of_single (d := dot_S50000x512_S512x256_S50000x256_1_0_0_1_n_n) (cl := 1) rfl j k
theorem rhsB_0 (j : S50000x256.Idx) (k : dot_S50000x512_S512x256_S50000x256_1_0_0_1_n_n.contr.Idx) : (dot_S50000x512_S512x256_S50000x256_1_0_0_1_n_n.rhsIdx j k 0).val = (k ⟨0, by decide⟩).val :=
  DotDims.rhsIdx_val_of_single (d := dot_S50000x512_S512x256_S50000x256_1_0_0_1_n_n) (cr := 0) rfl j k
theorem rhsB_1 (j : S50000x256.Idx) (k : dot_S50000x512_S512x256_S50000x256_1_0_0_1_n_n.contr.Idx) : (dot_S50000x512_S512x256_S50000x256_1_0_0_1_n_n.rhsIdx j k 1).val = (j 1).val := rfl

/-- The product read at an index: the sum over the 512 contraction positions. -/
theorem sumB (x : (⟨S50000x512, .f32⟩ : BufTy).Contents (Elt Ideal)) (w : (⟨S512x256, .f32⟩ : BufTy).Contents (Elt Ideal)) (j : S50000x256.Idx) :
    Host.dotGeneral (F := Ideal) (φ₁ := .f32) (φ₂ := .f32) dot_S50000x512_S512x256_S50000x256_1_0_0_1_n_n none x w j = ∑ k : Fin 512, x (ix2 (j 0) k) * w (ix2 k (j 1)) := by
  simp only [Host.dotGeneral]
  rw [Ideal.dotGeneral_apply, ← Equiv.sum_comp (contrEquiv1 dot_S50000x512_S512x256_S50000x256_1_0_0_1_n_n 512 rfl rfl).symm]
  refine Finset.sum_congr rfl fun k _ => ?_
  have hk := contrEquiv1_symm_val dot_S50000x512_S512x256_S50000x256_1_0_0_1_n_n 512 rfl rfl k
  have hl : dot_S50000x512_S512x256_S50000x256_1_0_0_1_n_n.lhsIdx j ((contrEquiv1 dot_S50000x512_S512x256_S50000x256_1_0_0_1_n_n 512 rfl rfl).symm k) = ix2 (j 0) k := by
    funext a
    apply Fin.ext
    match a with
    | ⟨0, _⟩ => exact lhsB_0 _ _
    | ⟨1, _⟩ => exact (lhsB_1 _ _).trans hk
  have hr : dot_S50000x512_S512x256_S50000x256_1_0_0_1_n_n.rhsIdx j ((contrEquiv1 dot_S50000x512_S512x256_S50000x256_1_0_0_1_n_n 512 rfl rfl).symm k) = ix2 k (j 1) := by
    funext a
    apply Fin.ext
    match a with
    | ⟨0, _⟩ => exact (rhsB_0 _ _).trans hk
    | ⟨1, _⟩ => exact rhsB_1 _ _
  rw [hl, hr]
  rfl

/-- Where the product dot_S50000x512_S512x32_S50000x32_1_0_0_1_n_n reads its operands: the left one at (row of the result, contraction position), the right
    one at (contraction position, column of the result). -/
theorem lhsC_0 (j : S50000x32.Idx) (k : dot_S50000x512_S512x32_S50000x32_1_0_0_1_n_n.contr.Idx) : (dot_S50000x512_S512x32_S50000x32_1_0_0_1_n_n.lhsIdx j k 0).val = (j 0).val := rfl
theorem lhsC_1 (j : S50000x32.Idx) (k : dot_S50000x512_S512x32_S50000x32_1_0_0_1_n_n.contr.Idx) : (dot_S50000x512_S512x32_S50000x32_1_0_0_1_n_n.lhsIdx j k 1).val = (k ⟨0, by decide⟩).val :=
  DotDims.lhsIdx_val_of_single (d := dot_S50000x512_S512x32_S50000x32_1_0_0_1_n_n) (cl := 1) rfl j k
theorem rhsC_0 (j : S50000x32.Idx) (k : dot_S50000x512_S512x32_S50000x32_1_0_0_1_n_n.contr.Idx) : (dot_S50000x512_S512x32_S50000x32_1_0_0_1_n_n.rhsIdx j k 0).val = (k ⟨0, by decide⟩).val :=
  DotDims.rhsIdx_val_of_single (d := dot_S50000x512_S512x32_S50000x32_1_0_0_1_n_n) (cr := 0) rfl j k
theorem rhsC_1 (j : S50000x32.Idx) (k : dot_S50000x512_S512x32_S50000x32_1_0_0_1_n_n.contr.Idx) : (dot_S50000x512_S512x32_S50000x32_1_0_0_1_n_n.rhsIdx j k 1).val = (j 1).val := rfl

/-- The product read at an index: the sum over the 512 contraction positions. -/
theorem sumC (x : (⟨S50000x512, .f32⟩ : BufTy).Contents (Elt Ideal)) (w : (⟨S512x32, .f32⟩ : BufTy).Contents (Elt Ideal)) (j : S50000x32.Idx) :
    Host.dotGeneral (F := Ideal) (φ₁ := .f32) (φ₂ := .f32) dot_S50000x512_S512x32_S50000x32_1_0_0_1_n_n none x w j = ∑ k : Fin 512, x (ix2 (j 0) k) * w (ix2 k (j 1)) := by
  simp only [Host.dotGeneral]
  rw [Ideal.dotGeneral_apply, ← Equiv.sum_comp (contrEquiv1 dot_S50000x512_S512x32_S50000x32_1_0_0_1_n_n 512 rfl rfl).symm]
  refine Finset.sum_congr rfl fun k _ => ?_
  have hk := contrEquiv1_symm_val dot_S50000x512_S512x32_S50000x32_1_0_0_1_n_n 512 rfl rfl k
  have hl : dot_S50000x512_S512x32_S50000x32_1_0_0_1_n_n.lhsIdx j ((contrEquiv1 dot_S50000x512_S512x32_S50000x32_1_0_0_1_n_n 512 rfl rfl).symm k) = ix2 (j 0) k := by
    funext a
    apply Fin.ext
    match a with
    | ⟨0, _⟩ => exact lhsC_0 _ _
    | ⟨1, _⟩ => exact (lhsC_1 _ _).trans hk
  have hr : dot_S50000x512_S512x32_S50000x32_1_0_0_1_n_n.rhsIdx j ((contrEquiv1 dot_S50000x512_S512x32_S50000x32_1_0_0_1_n_n 512 rfl rfl).symm k) = ix2 k (j 1) := by
    funext a
    apply Fin.ext
    match a with
    | ⟨0, _⟩ => exact (rhsC_0 _ _).trans hk
    | ⟨1, _⟩ => exact rhsC_1 _ _
  rw [hl, hr]
  rfl

/-- Where the product dot_S50000x512_S512x512_S50000x512_1_0_0_1_n_n reads its operands: the left one at (row of the result, contraction position), the right
    one at (contraction position, column of the result). -/
theorem lhsR_0 (j : S50000x512.Idx) (k : dot_S50000x512_S512x512_S50000x512_1_0_0_1_n_n.contr.Idx) : (dot_S50000x512_S512x512_S50000x512_1_0_0_1_n_n.lhsIdx j k 0).val = (j 0).val := rfl
theorem lhsR_1 (j : S50000x512.Idx) (k : dot_S50000x512_S512x512_S50000x512_1_0_0_1_n_n.contr.Idx) : (dot_S50000x512_S512x512_S50000x512_1_0_0_1_n_n.lhsIdx j k 1).val = (k ⟨0, by decide⟩).val :=
  DotDims.lhsIdx_val_of_single (d := dot_S50000x512_S512x512_S50000x512_1_0_0_1_n_n) (cl := 1) rfl j k
theorem rhsR_0 (j : S50000x512.Idx) (k : dot_S50000x512_S512x512_S50000x512_1_0_0_1_n_n.contr.Idx) : (dot_S50000x512_S512x512_S50000x512_1_0_0_1_n_n.rhsIdx j k 0).val = (k ⟨0, by decide⟩).val :=
  DotDims.rhsIdx_val_of_single (d := dot_S50000x512_S512x512_S50000x512_1_0_0_1_n_n) (cr := 0) rfl j k
theorem rhsR_1 (j : S50000x512.Idx) (k : dot_S50000x512_S512x512_S50000x512_1_0_0_1_n_n.contr.Idx) : (dot_S50000x512_S512x512_S50000x512_1_0_0_1_n_n.rhsIdx j k 1).val = (j 1).val := rfl

/-- The product read at an index: the sum over the 512 contraction positions. -/
theorem sumR (x : (⟨S50000x512, .f32⟩ : BufTy).Contents (Elt Ideal)) (w : (⟨S512x512, .f32⟩ : BufTy).Contents (Elt Ideal)) (j : S50000x512.Idx) :
    Host.dotGeneral (F := Ideal) (φ₁ := .f32) (φ₂ := .f32) dot_S50000x512_S512x512_S50000x512_1_0_0_1_n_n none x w j = ∑ k : Fin 512, x (ix2 (j 0) k) * w (ix2 k (j 1)) := by
  simp only [Host.dotGeneral]
  rw [Ideal.dotGeneral_apply, ← Equiv.sum_comp (contrEquiv1 dot_S50000x512_S512x512_S50000x512_1_0_0_1_n_n 512 rfl rfl).symm]
  refine Finset.sum_congr rfl fun k _ => ?_
  have hk := contrEquiv1_symm_val dot_S50000x512_S512x512_S50000x512_1_0_0_1_n_n 512 rfl rfl k
  have hl : dot_S50000x512_S512x512_S50000x512_1_0_0_1_n_n.lhsIdx j ((contrEquiv1 dot_S50000x512_S512x512_S50000x512_1_0_0_1_n_n 512 rfl rfl).symm k) = ix2 (j 0) k := by
    funext a
    apply Fin.ext
    match a with
    | ⟨0, _⟩ => exact lhsR_0 _ _
    | ⟨1, _⟩ => exact (lhsR_1 _ _).trans hk
  have hr : dot_S50000x512_S512x512_S50000x512_1_0_0_1_n_n.rhsIdx j ((contrEquiv1 dot_S50000x512_S512x512_S50000x512_1_0_0_1_n_n 512 rfl rfl).symm k) = ix2 k (j 1) := by
    funext a
    apply Fin.ext
    match a with
    | ⟨0, _⟩ => exact (rhsR_0 _ _).trans hk
    | ⟨1, _⟩ => exact rhsR_1 _ _
  rw [hl, hr]
  rfl

/-- A [32] vector laid along the second axis of a [50000, 32] array (through a [1, 32] row) reads, at (p, q), the vector at q. -/
theorem bias_at (h1 : S32.BroadcastsInDim S1x32 ![1]) (h2 : S1x32.BroadcastsInDim S50000x32 ![0, 1])
    (b : (⟨S32, .f32⟩ : BufTy).Contents (Elt Ideal)) (p : Fin 50000) (q : Fin 32) :
    broadcastInDim S50000x32 ![0, 1] h2 (broadcastInDim S1x32 ![1] h1 b) (ix2 p q) = b (ix1 q) := by
  have e1 : (ix2 p q : S50000x32.Idx) = StableHlo.Predicate.ij p q := by
    funext a
    match a with
    | ⟨0, _⟩ => rfl
    | ⟨1, _⟩ => rfl
  have e2 : (ix1 q : S32.Idx) = Shape.Idx.ofFin q := by
    funext a
    match a with
    | ⟨0, _⟩ => exact Fin.ext rfl
  rw [e1, e2]
  exact StableHlo.Predicate.bcast_cols h1 h2 b p q

theorem dotB_eq (x : (⟨S50000x512, .f32⟩ : BufTy).Contents (Elt Ideal)) (w : (⟨S512x256, .f32⟩ : BufTy).Contents (Elt Ideal)) : dotB (F := Ideal) x w = Cert.Spec.projB x w := by
  funext j
  unfold dotB Cert.Spec.projB
  exact sumB x w j

theorem dotC_eq (x : (⟨S50000x512, .f32⟩ : BufTy).Contents (Elt Ideal)) (w : (⟨S512x32, .f32⟩ : BufTy).Contents (Elt Ideal)) (b : (⟨S32, .f32⟩ : BufTy).Contents (Elt Ideal)) : dotC (F := Ideal) x w b = Cert.Spec.projC x w b := by
  funext j
  obtain ⟨p, q, rfl⟩ : ∃ (p : Fin 50000) (q : Fin 32), j = ix2 p q := ⟨j 0, j 1, eq_ix2 j⟩
  unfold dotC Cert.Spec.projC
  show Host.dotGeneral (F := Ideal) (φ₁ := .f32) (φ₂ := .f32) _ none x w (ix2 p q) + _ = _
  rw [sumC x w (ix2 p q)]
  exact congrArg (_ + ·) (bias_at _ _ b p q)

theorem dotR_eq (x : (⟨S50000x512, .f32⟩ : BufTy).Contents (Elt Ideal)) (w : (⟨S512x512, .f32⟩ : BufTy).Contents (Elt Ideal)) (b : (⟨S512, .f32⟩ : BufTy).Contents (Elt Ideal)) :
    (fun i => dotR (F := Ideal) x w i + b (ix1 (i 1))) = Cert.Spec.projR x w b := by
  funext j
  unfold dotR Cert.Spec.projR
  show Host.dotGeneral (F := Ideal) (φ₁ := .f32) (φ₂ := .f32) _ none x w j + _ = _
  rw [sumR x w j]

end Cert.ReferenceIdeal.DotValue

end
-- ==== Proof.RefPre.lean ====
/-
  The reference's row before normalisation, read at an index: the batched product over the four bases is the sum
  over them, the two reshapes are row-major, and the four summands regroup (addition of extended reals is associative).
-/
import proofs.«131571_j76828374991621_1_alg».proof.Proof.Gen.ReferenceIdeal
import proofs.«131571_j76828374991621_1_alg».proof.Proof.RefTerm
import proofs.«131571_j76828374991621_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.ReferenceIdeal.TailValue

open Cert.ReferenceIdeal Cert.ReferenceIdeal.Gen Cert.ReferenceIdeal.Term
open Idealize.ShloMosaic Idealize.ShloMosaic.TcCoe Idealize.SL.Sem Idealize.ShloMosaic.ValueIdx

/-- A [512] vector copied into every row of a [50000, 512] array reads, at (n, q), the vector's entry q: the inner
    broadcast puts the vector on the one row of a [1, 512] array, the outer one repeats that row. -/
theorem rows_apply (v : (⟨S512, .f32⟩ : BufTy).Contents (Elt Ideal)) (n : Fin 50000) (q : Fin 512) :
    rows (F := Ideal) v (ix2 n q) = v (ix1 q) := by
  unfold rows
  have outer := broadcastInDim_apply (![0, 1] : Fin 2 → Fin S50000x512.rank) bcast_S1x512_S50000x512_0_1
    (broadcastInDim S1x512 ![1] bcast_S512_S1x512_1 v) (ix2 n q) (ix2 (0 : Fin 1) q) (by
      intro a
      match a with
      | ⟨0, _⟩ => rfl
      | ⟨1, _⟩ => rfl)
  have inner := broadcastInDim_apply (![1] : Fin 1 → Fin S1x512.rank) bcast_S512_S1x512_1 v
    (ix2 (0 : Fin 1) q) (ix1 q) (by
      intro a
      match a with
      | ⟨0, _⟩ => rfl)
  exact outer.trans inner

/-- The [50000, 32] array of combination weights seen as [50000, 8, 4]: entry (n, h, b) is column 4h + b of row n. -/
theorem comb_reshape_apply (comb : (⟨S50000x32, .f32⟩ : BufTy).Contents (Elt Ideal)) (n : Fin 50000) (h : Fin 8) (b : Fin 4) :
    shapeCast S50000x8x4 comb shapeCasts_S50000x32_S50000x8x4 (ix3 n h b)
      = comb (ix2 n ⟨h.val * 4 + b.val, by have := h.isLt; have := b.isLt; omega⟩) := by
  refine shapeCast_apply comb shapeCasts_S50000x32_S50000x8x4 (ix3 n h b) _ ?_
  rw [Shape.rowMajor_val_three, Shape.rowMajor_val_two]
  show n.val * 32 + (h.val * 4 + b.val) = (n.val * 8 + h.val) * 4 + b.val
  omega

/-- The [50000, 256] aggregate seen as [50000, 4, 64]: entry (n, b, f) is column 64b + f of row n. -/
theorem agg_reshape_apply (agg : (⟨S50000x256, .f32⟩ : BufTy).Contents (Elt Ideal)) (n : Fin 50000) (b : Fin 4) (f : Fin 64) :
    shapeCast S50000x4x64 agg shapeCasts_S50000x256_S50000x4x64 (ix3 n b f)
      = agg (ix2 n ⟨b.val * 64 + f.val, by have := b.isLt; have := f.isLt; omega⟩) := by
  refine shapeCast_apply agg shapeCasts_S50000x256_S50000x4x64 (ix3 n b f) _ ?_
  rw [Shape.rowMajor_val_three, Shape.rowMajor_val_two]
  show n.val * 256 + (b.val * 64 + f.val) = (n.val * 4 + b.val) * 64 + f.val
  omega

/-- The [50000, 8, 64] product seen as [50000, 512]: column q of row n is head q / 64, feature q % 64. -/
theorem out_reshape_apply (D : (⟨S50000x8x64, .f32⟩ : BufTy).Contents (Elt Ideal)) (n : Fin 50000) (q : Fin 512) :
    shapeCast S50000x512 D shapeCasts_S50000x8x64_S50000x512 (ix2 n q)
      = D (ix3 n ⟨q.val / 64, by have := q.isLt; omega⟩ ⟨q.val % 64, by omega⟩) := by
  refine shapeCast_apply D shapeCasts_S50000x8x64_S50000x512 (ix2 n q) _ ?_
  rw [Shape.rowMajor_val_three, Shape.rowMajor_val_two]
  show (n.val * 8 + q.val / 64) * 64 + q.val % 64 = n.val * 512 + q.val
  omega

theorem preR_apply (comb : (⟨S50000x32, .f32⟩ : BufTy).Contents (Elt Ideal)) (agg : (⟨S50000x256, .f32⟩ : BufTy).Contents (Elt Ideal)) (xr : (⟨S50000x512, .f32⟩ : BufTy).Contents (Elt Ideal)) (cb br : (⟨S512, .f32⟩ : BufTy).Contents (Elt Ideal))
    (n : Fin 50000) (q : Fin 512) :
    preR (F := Ideal) comb agg xr cb br (ix2 n q)
      = (Cert.Spec.mix (R := 50000) comb agg n q + cb (ix1 q)) + (xr (ix2 n q) + br (ix1 q)) := by
  -- the batched product at (n, h, f) is the sum over the four bases of the products of the two reshaped operands
  have hdot : shapeCast S50000x512 (Host.dotGeneral (F := Ideal) (φ₁ := .f32) (φ₂ := .f32) dot_S50000x8x4_S50000x4x64_S50000x8x64_2_1_1_2_0_0 none
        (shapeCast S50000x8x4 comb shapeCasts_S50000x32_S50000x8x4) (shapeCast S50000x4x64 agg shapeCasts_S50000x256_S50000x4x64))
        shapeCasts_S50000x8x64_S50000x512 (ix2 n q) = Cert.Spec.mix (R := 50000) comb agg n q := by
    rw [out_reshape_apply]
    refine (StackMember.dotGeneral_stack_apply (G := 50000) (m := 8) (n := 64) (k := 4)
      dot_S50000x8x4_S50000x4x64_S50000x8x64_2_1_1_2_0_0.wf none _ _ _ _ _).trans ?_
    unfold Cert.Spec.mix
    refine Finset.sum_congr rfl fun b _ => ?_
    rw [comb_reshape_apply, agg_reshape_apply]
  unfold preR
  rw [addf_apply, addf_apply, addf_apply, rows_apply, rows_apply, hdot]
  exact add_assoc _ _ _

end Cert.ReferenceIdeal.TailValue

end
-- ==== Proof.RefNorm.lean ====
/-
  The reference's normalisation, read at an index: the host sums over a row are the plain sums, its variance divides
  by 512 - 0 under a select on 512 - 0 > 0 that always takes the quotient, and the rest is entry by entry.
-/
import proofs.«131571_j76828374991621_1_alg».proof.Proof.Gen.ReferenceIdeal
import proofs.«131571_j76828374991621_1_alg».proof.Proof.RefTerm
import proofs.«131571_j76828374991621_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.TailValue

open Cert.ReferenceIdeal Cert.ReferenceIdeal.Gen Cert.ReferenceIdeal.Term
open Idealize.ShloMosaic Idealize.ShloMosaic.TcCoe Idealize.SL.Sem Idealize.ShloMosaic.ValueIdx
open scoped BigOperators

/-! ## The layout operations of the normalisation, read at an index -/

/-- The sum of a [50000, 512] array over its second axis, from the initial value zero, is at row n the plain sum of the
    row's 512 entries: the initial value adds nothing, and the index with k inserted on the summed axis is (n, k). -/
private theorem rowSum (x : (⟨S50000x512, .f32⟩ : BufTy).Contents (Elt Ideal)) (h' : S50000x512.ReducesTo [1] S50000)
    (hu : 0 < S_.numel) (n : Fin 50000) :
    Host.reduceAdd x (constant (F := Ideal) S_ .f32 0x00000000#32) h' hu (ix1 n) = ∑ k : Fin 512, x (ix2 n k) := by
  have hR : S50000x512.Reduces [1] S50000 := by decide
  show Ideal.hostReduceAdd h' x (Ideal.ofBits .f32 0x00000000#32) (ix1 n) = _
  rw [Ideal.hostReduceAdd_single h' hR, Ideal.ofBits_zero_f32, zero_add]
  refine Finset.sum_congr rfl fun k _ => congrArg x ?_
  funext c
  match c with
  | ⟨0, _⟩ => rfl
  | ⟨1, _⟩ => rfl

/-- A [50000, 1] column laid along every row of a [50000, 512] array reads, at (n, q), the column at (n, 0). -/
private theorem bcCol {α : Type} (v : S50000x1.Idx → α)
    (h : S50000x1.BroadcastsInDim S50000x512 (![0, 1] : Fin 2 → Fin S50000x512.rank)) (n : Fin 50000) (q : Fin 512) :
    broadcastInDim S50000x512 ![0, 1] h v (ix2 n q) = v (ix2 n 0) :=
  broadcastInDim_apply _ h v _ (ix2 n 0) fun a => by
    match a with
    | ⟨0, _⟩ => rfl
    | ⟨1, _⟩ => rfl

/-- A [50000] vector as a [50000, 1] column reads, at (n, 0), the vector at n. -/
private theorem bcVecCol {α : Type} (v : S50000.Idx → α)
    (h : S50000.BroadcastsInDim S50000x1 (![0] : Fin 1 → Fin S50000x1.rank)) (n : Fin 50000) :
    broadcastInDim S50000x1 ![0] h v (ix2 n 0) = v (ix1 n) :=
  broadcastInDim_apply _ h v _ (ix1 n) fun a => by
    match a with
    | ⟨0, _⟩ => rfl

/-- A scalar broadcast to any shape reads the scalar everywhere. -/
private theorem bcScalar {α : Type} {T : Shape} (v : S_.Idx → α) (h : S_.BroadcastsInDim T (![] : Fin 0 → Fin T.rank))
    (j : T.Idx) : broadcastInDim T ![] h v j = v ix0 :=
  broadcastInDim_apply _ h v _ ix0 fun a => a.elim0

/-- A [512] vector as every row of a [50000, 512] array (through a [1, 512] row) reads, at (n, q), the vector at q. -/
private theorem bcRows {α : Type} (v : S512.Idx → α) (h₁ : S512.BroadcastsInDim S1x512 (![1] : Fin 1 → Fin S1x512.rank))
    (h₂ : S1x512.BroadcastsInDim S50000x512 (![0, 1] : Fin 2 → Fin S50000x512.rank)) (n : Fin 50000) (q : Fin 512) :
    broadcastInDim S50000x512 ![0, 1] h₂ (broadcastInDim S1x512 ![1] h₁ v) (ix2 n q) = v (ix1 q) := by
  refine (broadcastInDim_apply _ h₂ _ _ (ix2 0 q) fun a => ?_).trans (broadcastInDim_apply _ h₁ v _ (ix1 q) fun a => ?_)
  · match a with
    | ⟨0, _⟩ => rfl
    | ⟨1, _⟩ => rfl
  · match a with
    | ⟨0, _⟩ => rfl

/-- The host's reciprocal square root at an index is the extended reals' one of the element. -/
private theorem hostRsqrt_apply {s : Shape} {φ : FTy} (x : FVec Ideal s φ) (i : s.Idx) :
    Host.rsqrt x i = Ideal.rsqrt (x i) := rfl

/-! ## The degrees of freedom: 512 - 0, which is positive -/

/-- The pattern 0x44000000 denotes 2^23 · 2^(136 - 127 - 23) = 2^9 = 512, which is above zero. -/
private theorem lit512_pos : (0 : EReal) < Ideal.ofBits .f32 0x44000000#32 := by
  have h : Ideal.ofBits .f32 0x44000000#32 = ((512 : ℝ) : EReal) := by
    simp [Ideal.ofBits, Ideal.ieee, -EReal.coe_mul]; norm_num
  rw [h]; exact_mod_cast (by norm_num : (0 : ℝ) < 512)

/-- 512 minus the integer 0 read as a real is 512 itself (the same word the specification divides by). -/
private theorem dof_apply : dof (F := Ideal) ix0 = Ideal.ofBits .f32 0x44000000#32 := by
  show Ideal.ofBits .f32 0x44000000#32 - (((0#32 : BitVec 32).toInt : ℝ) : EReal) = _
  simp

/-- So the select's condition, 512 - 0 > 0, is the true bit. -/
private theorem dof_pos : cmpf (F := Ideal) .ogt (dof (F := Ideal)) (constant S_ .f32 0x00000000#32) ix0 = 1#1 := by
  refine (cmpf_apply _ _ _ _).trans ?_
  rw [dof_apply, Ideal.cmpf_def]
  show Ideal.cmp .ogt (Ideal.ofBits .f32 0x44000000#32) (Ideal.ofBits .f32 0x00000000#32) = 1#1
  rw [Ideal.ofBits_zero_f32]
  unfold Ideal.cmp
  simp [lit512_pos]

/-! ## Mean, variance, and the normalised entry -/

/-- The reference's mean of row n: the row's sum divided by 512. -/
private theorem meanR_apply (o : (⟨S50000x512, .f32⟩ : BufTy).Contents (Elt Ideal)) (n : Fin 50000) :
    meanR (F := Ideal) o (ix2 n 0) = Cert.Spec.meanOf (fun j => o (ix2 n j)) := by
  unfold meanR Cert.Spec.meanOf
  refine (hostDivf_apply _ _ _).trans ?_
  rw [bcVecCol, rowSum, bcScalar]
  rfl

/-- The reference's variance of row n: the select takes the quotient, the squared deviations from the mean summed over
    the row and divided by 512 - 0 = 512. -/
private theorem varR_apply (o : (⟨S50000x512, .f32⟩ : BufTy).Contents (Elt Ideal)) (n : Fin 50000) :
    varR (F := Ideal) o (ix2 n 0) = Cert.Spec.varOf (fun j => o (ix2 n j)) := by
  unfold varR
  refine (select_apply _ _ _ _).trans ?_
  rw [bcScalar, dof_pos, select_one]
  refine (hostDivf_apply _ _ _).trans ?_
  rw [bcVecCol, rowSum, bcScalar, dof_apply]
  unfold Cert.Spec.varOf
  refine congrArg (Ideal.div · (Ideal.ofBits .f32 0x44000000#32)) (Finset.sum_congr rfl fun k _ => ?_)
  rw [mulf_apply, subf_apply, bcCol, meanR_apply]

theorem normR_apply (o : (⟨S50000x512, .f32⟩ : BufTy).Contents (Elt Ideal)) (γ β : (⟨S512, .f32⟩ : BufTy).Contents (Elt Ideal)) (n : Fin 50000) (q : Fin 512) :
    normR (F := Ideal) o γ β (ix2 n q)
      = Cert.Spec.normOf (fun j => o (ix2 n j)) (fun j => γ (ix1 j)) (fun j => β (ix1 j)) q := by
  unfold normR rows Cert.Spec.normOf
  -- entry (n, q): the maximum with zero of ((o - mean) · rsqrt(var + ε)) · γ + β, each array read at its own index
  rw [maximumf_apply, addf_apply, mulf_apply, mulf_apply, subf_apply, bcCol, bcCol, bcRows, bcRows, bcScalar, meanR_apply]
  rw [hostRsqrt_apply, addf_apply, bcScalar, varR_apply]
  rfl

end Cert.ReferenceIdeal.TailValue

end
-- ==== Proof.RefTail.lean ====
/-
  The reference's tail is the row function of Proof/Spec.lean: its row before normalisation read at an index
  (Proof/RefPre.lean), then its normalisation read at an index (Proof/RefNorm.lean).
-/
import proofs.«131571_j76828374991621_1_alg».proof.Proof.RefPre
import proofs.«131571_j76828374991621_1_alg».proof.Proof.RefNorm

set_option maxRecDepth 16384

noncomputable section

namespace Cert.ReferenceIdeal.TailValue

open Cert.ReferenceIdeal Cert.ReferenceIdeal.Gen Cert.ReferenceIdeal.Term
open Idealize.ShloMosaic Idealize.ShloMosaic.TcCoe Idealize.SL.Sem Idealize.ShloMosaic.ValueIdx

theorem tail_eq (comb : (⟨S50000x32, .f32⟩ : BufTy).Contents (Elt Ideal)) (agg : (⟨S50000x256, .f32⟩ : BufTy).Contents (Elt Ideal)) (xr : (⟨S50000x512, .f32⟩ : BufTy).Contents (Elt Ideal))
    (cb br γ β : (⟨S512, .f32⟩ : BufTy).Contents (Elt Ideal)) :
    tail (F := Ideal) comb agg xr cb br γ β
      = Cert.Spec.rowNorm (R := 50000) comb agg (fun i => xr i + br (ix1 (i 1))) (fun j => cb (ix1 j)) (fun j => γ (ix1 j)) (fun j => β (ix1 j)) := by
  funext y
  obtain ⟨n, q, rfl⟩ : ∃ (n : Fin 50000) (q : Fin 512), y = ix2 n q := ⟨y 0, y 1, eq_ix2 y⟩
  unfold tail
  rw [normR_apply]
  show Cert.Spec.normOf _ _ _ q
    = Cert.Spec.normOf (Cert.Spec.pre (R := 50000) comb agg (fun i => xr i + br (ix1 (i 1))) (fun j => cb (ix1 j)) n) _ _ q
  congr 1
  funext j
  rw [preR_apply]
  rfl

end Cert.ReferenceIdeal.TailValue

end
-- ==== Proof.RefValue.lean ====
/-
  The reference's result term is the function of Proof/Spec.lean of its arguments: its three products are the plain
  sums, and its tail is the row function.
-/
import proofs.«131571_j76828374991621_1_alg».proof.Proof.RefDots
import proofs.«131571_j76828374991621_1_alg».proof.Proof.RefTail

noncomputable section

namespace Cert.ReferenceIdeal.Whole

open Cert.ReferenceIdeal Cert.ReferenceIdeal.Gen Cert.ReferenceIdeal.Term
open Idealize.ShloMosaic Idealize.ShloMosaic.TcCoe Idealize.SL.Sem Idealize.ShloMosaic.ValueIdx

theorem result_spec (x : (⟨S50000x512, .f32⟩ : BufTy).Contents (Elt Ideal)) (ei : (⟨S2x800000, .i32⟩ : BufTy).Contents (Elt Ideal))
    (wb : (⟨S512x256, .f32⟩ : BufTy).Contents (Elt Ideal)) (wc : (⟨S512x32, .f32⟩ : BufTy).Contents (Elt Ideal)) (bc : (⟨S32, .f32⟩ : BufTy).Contents (Elt Ideal)) (cb : (⟨S512, .f32⟩ : BufTy).Contents (Elt Ideal))
    (wr : (⟨S512x512, .f32⟩ : BufTy).Contents (Elt Ideal)) (br γ β : (⟨S512, .f32⟩ : BufTy).Contents (Elt Ideal)) :
    result (F := Ideal) x ei wb wc bc cb wr br γ β
      = Cert.Spec.rowNorm (R := 50000) (Cert.Spec.projC x wc bc) (aggR (F := Ideal) (Cert.Spec.projB x wb) ei) (Cert.Spec.projR x wr br)
          (fun j => cb (ix1 j)) (fun j => γ (ix1 j)) (fun j => β (ix1 j)) := by
  unfold result
  rw [TailValue.tail_eq, DotValue.dotB_eq, DotValue.dotC_eq, DotValue.dotR_eq]

end Cert.ReferenceIdeal.Whole

end
-- ==== Proof.lean ====
/-
  The certificate: an edge-gated graph convolution with a residual branch, layer normalisation and a clip at 0,
  computed by two fused kernels around a scatter/gather aggregation, against its plain jnp form.

  Over the extended reals both programs compute one function of the ten arguments (Proof/Spec.lean): three linear
  maps of every node's feature row; the symmetric-normalised aggregation of the first over the edges; per head and
  feature the sum over the four bases of weight times aggregate; output bias and residual added; each row of 512
  centred, divided by the root of its variance plus ε, scaled, shifted, and clipped below at 0.
  The kernel's program differs from the reference in spelling only: its products run on the matrix unit into a zero
  accumulator from operands narrowed to bf16 (the identity on the extended reals), its sum over the four bases is
  written out term by term from 0, it adds the residual's bias before the residual is added to the convolution
  (addition of extended reals is associative), and it divides the squared deviations by the literal 512 where the
  reference divides by 512 - 0. No step needs the inputs finite.

  The frames of the two kernel programs are the generated ones; the reference's frame is its run with the value dropped.
-/
import proofs.«131571_j76828374991621_1_alg».proof.Defs
import proofs.«131571_j76828374991621_1_alg».proof.Proof.Gen.Kernel
import proofs.«131571_j76828374991621_1_alg».proof.Proof.Gen.Kernel.Frame
import proofs.«131571_j76828374991621_1_alg».proof.Proof.Gen.KernelIdeal
import proofs.«131571_j76828374991621_1_alg».proof.Proof.Gen.KernelIdeal.Frame
import proofs.«131571_j76828374991621_1_alg».proof.Proof.Gen.ReferenceIdeal
import proofs.«131571_j76828374991621_1_alg».proof.Proof.Gen.Pre_finite_inputs
import proofs.«131571_j76828374991621_1_alg».proof.Proof.KernelValue
import proofs.«131571_j76828374991621_1_alg».proof.Proof.RefRun
import proofs.«131571_j76828374991621_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.Run.run (F := Ideal) m ρ)

/-- Both runs end with the result at the specification of the (agreeing) arguments. -/
theorem algebraic : Cert.algebraic_KernelIdeal_ReferenceIdeal := by
  intro m ρ m' ρ' _ hagree
  refine ⟨fun c => Cert.KernelIdeal.Whole.out m c, ?_, ?_⟩
  · exact (θ_run Cert.KernelIdeal.defs _ _).mono
      (fun _ h c => ⟨(h c).1.trans (Cert.KernelIdeal.Whole.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Run.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.ReferenceIdeal.Whole.result_spec _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
